-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S124x784 : Shape := ⟨2, ![124, 784]⟩
abbrev S32x124 : Shape := ⟨2, ![32, 124]⟩
abbrev S22x32 : Shape := ⟨2, ![22, 32]⟩
abbrev S22 : Shape := ⟨1, ![22]⟩
abbrev S21x22 : Shape := ⟨2, ![21, 22]⟩
abbrev S21 : Shape := ⟨1, ![21]⟩
abbrev S10x21 : Shape := ⟨2, ![10, 21]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S124x784 : S_.BroadcastsInDim S124x784 (![] : Fin 0 → Fin S124x784.rank)
  reducesTo_S124x784_S_d0_1 : S124x784.ReducesTo [0, 1] S_
  bcast_S_S32x124 : S_.BroadcastsInDim S32x124 (![] : Fin 0 → Fin S32x124.rank)
  reducesTo_S32x124_S_d0_1 : S32x124.ReducesTo [0, 1] S_
  bcast_S_S22x32 : S_.BroadcastsInDim S22x32 (![] : Fin 0 → Fin S22x32.rank)
  reducesTo_S22x32_S_d0_1 : S22x32.ReducesTo [0, 1] S_
  bcast_S_S22 : S_.BroadcastsInDim S22 (![] : Fin 0 → Fin S22.rank)
  reducesTo_S22_S_d0 : S22.ReducesTo [0] S_
  bcast_S_S21x22 : S_.BroadcastsInDim S21x22 (![] : Fin 0 → Fin S21x22.rank)
  reducesTo_S21x22_S_d0_1 : S21x22.ReducesTo [0, 1] S_
  bcast_S_S21 : S_.BroadcastsInDim S21 (![] : Fin 0 → Fin S21.rank)
  reducesTo_S21_S_d0 : S21.ReducesTo [0] S_
  bcast_S_S10x21 : S_.BroadcastsInDim S10x21 (![] : Fin 0 → Fin S10x21.rank)
  reducesTo_S10x21_S_d0_1 : S10x21.ReducesTo [0, 1] S_

variable [Facts]

def fn_part2 {F : FTy → Type} [FloatOps F] (main_arg7 : FVec F S10x21 .f32) (main_v33 : IVec S_ 1) : IVec S_ 1 :=
  let main_v34 : FVec F S10x21 .f32 := Host.absf main_arg7
  let main_cst_12 : FVec F S_ .f32 := constant S_ .f32 0x7F800000#32
  let main_v35 : FVec F S10x21 .f32 := broadcastInDim S10x21 ![] bcast_S_S10x21 main_cst_12
  let main_v36 : IVec S10x21 1 := cmpf .olt main_v34 main_v35
  let main_c_13 : IVec S_ 1 := constantI S_ 1 1#1
  let main_v37 : IVec S_ 1 := (fun x v => Host.reduce IntOp.andi x v reducesTo_S10x21_S_d0_1 h_S_) main_v36 main_c_13
  let main_v38 : IVec S_ 1 := andi main_v33 main_v37
  main_v38

def fn_part1 {F : FTy → Type} [FloatOps F] (main_arg4 : FVec F S22 .f32) (main_arg5 : FVec F S21x22 .f32) (main_arg6 : FVec F S21 .f32) (main_arg7 : FVec F S10x21 .f32) (main_v13 : IVec S_ 1) (main_v16 : IVec S22x32 1) : IVec S_ 1 :=
  let main_c_5 : IVec S_ 1 := constantI S_ 1 1#1
  let main_v17 : IVec S_ 1 := (fun x v => Host.reduce IntOp.andi x v reducesTo_S22x32_S_d0_1 h_S_) main_v16 main_c_5
  let main_v18 : IVec S_ 1 := andi main_v13 main_v17
  let main_v19 : FVec F S22 .f32 := Host.absf main_arg4
  let main_cst_6 : FVec F S_ .f32 := constant S_ .f32 0x7F800000#32
  let main_v20 : FVec F S22 .f32 := broadcastInDim S22 ![] bcast_S_S22 main_cst_6
  let main_v21 : IVec S22 1 := cmpf .olt main_v19 main_v20
  let main_c_7 : IVec S_ 1 := constantI S_ 1 1#1
  let main_v22 : IVec S_ 1 := (fun x v => Host.reduce IntOp.andi x v reducesTo_S22_S_d0 h_S_) main_v21 main_c_7
  let main_v23 : IVec S_ 1 := andi main_v18 main_v22
  let main_v24 : FVec F S21x22 .f32 := Host.absf main_arg5
  let main_cst_8 : FVec F S_ .f32 := constant S_ .f32 0x7F800000#32
  let main_v25 : FVec F S21x22 .f32 := broadcastInDim S21x22 ![] bcast_S_S21x22 main_cst_8
  let main_v26 : IVec S21x22 1 := cmpf .olt main_v24 main_v25
  let main_c_9 : IVec S_ 1 := constantI S_ 1 1#1
  let main_v27 : IVec S_ 1 := (fun x v => Host.reduce IntOp.andi x v reducesTo_S21x22_S_d0_1 h_S_) main_v26 main_c_9
  let main_v28 : IVec S_ 1 := andi main_v23 main_v27
  let main_v29 : FVec F S21 .f32 := Host.absf main_arg6
  let main_cst_10 : FVec F S_ .f32 := constant S_ .f32 0x7F800000#32
  let main_v30 : FVec F S21 .f32 := broadcastInDim S21 ![] bcast_S_S21 main_cst_10
  let main_v31 : IVec S21 1 := cmpf .olt main_v29 main_v30
  let main_c_11 : IVec S_ 1 := constantI S_ 1 1#1
  let main_v32 : IVec S_ 1 := (fun x v => Host.reduce IntOp.andi x v reducesTo_S21_S_d0 h_S_) main_v31 main_c_11
  let main_v33 : IVec S_ 1 := andi main_v28 main_v32
  fn_part2 (F := F) main_arg7 main_v33

def fn {F : FTy → Type} [FloatOps F] (main_arg0 : FVec F S65536x784 .f32) (main_arg1 : FVec F S124x784 .f32) (main_arg2 : FVec F S32x124 .f32) (main_arg3 : FVec F S22x32 .f32) (main_arg4 : FVec F S22 .f32) (main_arg5 : FVec F S21x22 .f32) (main_arg6 : FVec F S21 .f32) (main_arg7 : FVec F S10x21 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S124x784 .f32 := Host.absf main_arg1
  let main_cst_0 : FVec F S_ .f32 := constant S_ .f32 0x7F800000#32
  let main_v5 : FVec F S124x784 .f32 := broadcastInDim S124x784 ![] bcast_S_S124x784 main_cst_0
  let main_v6 : IVec S124x784 1 := cmpf .olt main_v4 main_v5
  let main_c_1 : IVec S_ 1 := constantI S_ 1 1#1
  let main_v7 : IVec S_ 1 := (fun x v => Host.reduce IntOp.andi x v reducesTo_S124x784_S_d0_1 h_S_) main_v6 main_c_1
  let main_v8 : IVec S_ 1 := andi main_v3 main_v7
  let main_v9 : FVec F S32x124 .f32 := Host.absf main_arg2
  let main_cst_2 : FVec F S_ .f32 := constant S_ .f32 0x7F800000#32
  let main_v10 : FVec F S32x124 .f32 := broadcastInDim S32x124 ![] bcast_S_S32x124 main_cst_2
  let main_v11 : IVec S32x124 1 := cmpf .olt main_v9 main_v10
  let main_c_3 : IVec S_ 1 := constantI S_ 1 1#1
  let main_v12 : IVec S_ 1 := (fun x v => Host.reduce IntOp.andi x v reducesTo_S32x124_S_d0_1 h_S_) main_v11 main_c_3
  let main_v13 : IVec S_ 1 := andi main_v8 main_v12
  let main_v14 : FVec F S22x32 .f32 := Host.absf main_arg3
  let main_cst_4 : FVec F S_ .f32 := constant S_ .f32 0x7F800000#32
  let main_v15 : FVec F S22x32 .f32 := broadcastInDim S22x32 ![] bcast_S_S22x32 main_cst_4
  let main_v16 : IVec S22x32 1 := cmpf .olt main_v14 main_v15
  fn_part1 (F := F) main_arg4 main_arg5 main_arg6 main_arg7 main_v13 main_v16
-- ==== Kernel.lean ====
abbrev S65536x784 : Shape := ⟨2, ![65536, 784]⟩
abbrev S124x784 : Shape := ⟨2, ![124, 784]⟩
abbrev S32x124 : Shape := ⟨2, ![32, 124]⟩
abbrev S22x32 : Shape := ⟨2, ![22, 32]⟩
abbrev S22 : Shape := ⟨1, ![22]⟩
abbrev S21x22 : Shape := ⟨2, ![21, 22]⟩
abbrev S21 : Shape := ⟨1, ![21]⟩
abbrev S10x21 : Shape := ⟨2, ![10, 21]⟩
abbrev S1x22 : Shape := ⟨2, ![1, 22]⟩
abbrev S1x21 : Shape := ⟨2, ![1, 21]⟩
abbrev S65536x10 : Shape := ⟨2, ![65536, 10]⟩
abbrev S2048x784 : Shape := ⟨2, ![2048, 784]⟩
abbrev S2048x10 : Shape := ⟨2, ![2048, 10]⟩
abbrev S2048x124 : Shape := ⟨2, ![2048, 124]⟩
abbrev S2048x32 : Shape := ⟨2, ![2048, 32]⟩
abbrev S2048x22 : Shape := ⟨2, ![2048, 22]⟩
abbrev S2048x21 : Shape := ⟨2, ![2048, 21]⟩
abbrev S2048 : Shape := ⟨1, ![2048]⟩
abbrev S2048x1 : Shape := ⟨2, ![2048, 1]⟩

abbrev nBuf : Space → Nat
  | .hbm => 16
  | .vmem => 11
  | .smem => 0
  | _ => 0

abbrev bufTy : (tb : Table) → Fin (tcTables nBuf tb) → BufTy
  | .hbm, ⟨0, _⟩ => ⟨S65536x784, .f32⟩
  | .hbm, ⟨1, _⟩ => ⟨S124x784, .f32⟩
  | .hbm, ⟨2, _⟩ => ⟨S32x124, .f32⟩
  | .hbm, ⟨3, _⟩ => ⟨S22x32, .f32⟩
  | .hbm, ⟨4, _⟩ => ⟨S22, .f32⟩
  | .hbm, ⟨5, _⟩ => ⟨S21x22, .f32⟩
  | .hbm, ⟨6, _⟩ => ⟨S21, .f32⟩
  | .hbm, ⟨7, _⟩ => ⟨S10x21, .f32⟩
  | .hbm, ⟨8, _⟩ => ⟨S124x784, .bf16⟩
  | .hbm, ⟨9, _⟩ => ⟨S32x124, .bf16⟩
  | .hbm, ⟨10, _⟩ => ⟨S22x32, .bf16⟩
  | .hbm, ⟨11, _⟩ => ⟨S21x22, .bf16⟩
  | .hbm, ⟨12, _⟩ => ⟨S10x21, .bf16⟩
  | .hbm, ⟨13, _⟩ => ⟨S1x22, .f32⟩
  | .hbm, ⟨14, _⟩ => ⟨S1x21, .f32⟩
  | .hbm, ⟨15, _⟩ => ⟨S65536x10, .f32⟩
  | .local _ .vmem, ⟨0, _⟩ => ⟨S2048x784, .f32⟩
  | .local _ .vmem, ⟨1, _⟩ => ⟨S2048x784, .f32⟩
  | .local _ .vmem, ⟨2, _⟩ => ⟨S124x784, .bf16⟩
  | .local _ .vmem, ⟨3, _⟩ => ⟨S32x124, .bf16⟩
  | .local _ .vmem, ⟨4, _⟩ => ⟨S22x32, .bf16⟩
  | .local _ .vmem, ⟨5, _⟩ => ⟨S1x22, .f32⟩
  | .local _ .vmem, ⟨6, _⟩ => ⟨S21x22, .bf16⟩
  | .local _ .vmem, ⟨7, _⟩ => ⟨S1x21, .f32⟩
  | .local _ .vmem, ⟨8, _⟩ => ⟨S10x21, .bf16⟩
  | .local _ .vmem, ⟨9, _⟩ => ⟨S2048x10, .f32⟩
  | .local _ .vmem, ⟨10, _⟩ => ⟨S2048x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S124x784 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x124 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S22x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x22 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S21x22 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x21 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x21 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x10 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S22_S1x22 : S22.ShapeCasts S1x22
  shapeCasts_S21_S1x21 : S21.ShapeCasts S1x21
  inb_S2048x784_S2048x784_0_0 : ∀ a, (![0, 0] : Fin 2 → Nat) a + S2048x784.size a ≤ S2048x784.size a
  h_S2048x784 : 0 < S2048x784.numel
  inb_S124x784_S124x784_0_0 : ∀ a, (![0, 0] : Fin 2 → Nat) a + S124x784.size a ≤ S124x784.size a
  h_S124x784 : 0 < S124x784.numel
  shapeCasts_S124x784_S124x784 : S124x784.ShapeCasts S124x784
  inb_S32x124_S32x124_0_0 : ∀ a, (![0, 0] : Fin 2 → Nat) a + S32x124.size a ≤ S32x124.size a
  h_S32x124 : 0 < S32x124.numel
  shapeCasts_S32x124_S32x124 : S32x124.ShapeCasts S32x124
  inb_S22x32_S22x32_0_0 : ∀ a, (![0, 0] : Fin 2 → Nat) a + S22x32.size a ≤ S22x32.size a
  h_S22x32 : 0 < S22x32.numel
  shapeCasts_S22x32_S22x32 : S22x32.ShapeCasts S22x32
  inb_S1x22_S1x22_0_0 : ∀ a, (![0, 0] : Fin 2 → Nat) a + S1x22.size a ≤ S1x22.size a
  h_S1x22 : 0 < S1x22.numel
  shapeCasts_S1x22_S1x22 : S1x22.ShapeCasts S1x22
  broadcasts_S1x22_S2048x22 : S1x22.Broadcasts S2048x22
  inb_S21x22_S21x22_0_0 : ∀ a, (![0, 0] : Fin 2 → Nat) a + S21x22.size a ≤ S21x22.size a
  h_S21x22 : 0 < S21x22.numel
  shapeCasts_S21x22_S21x22 : S21x22.ShapeCasts S21x22
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S2048x21 : S1x21.Broadcasts S2048x21
  inb_S10x21_S10x21_0_0 : ∀ a, (![0, 0] : Fin 2 → Nat) a + S10x21.size a ≤ S10x21.size a
  h_S10x21 : 0 < S10x21.numel
  shapeCasts_S10x21_S10x21 : S10x21.ShapeCasts S10x21
  reduces_S2048x10_S2048 : S2048x10.Reduces [1] S2048
  shapeCasts_S2048_S2048x1 : S2048.ShapeCasts S2048x1
  broadcasts_S2048x1_S2048x10 : S2048x1.Broadcasts S2048x10
  inb_S2048x10_S2048x10_0_0 : ∀ a, (![0, 0] : Fin 2 → Nat) a + S2048x10.size a ≤ S2048x10.size a
  h_S2048x10 : 0 < S2048x10.numel
  dot_S2048x784_S124x784_S2048x124_1_1_0_0_n_n_wf : DotDims.WF S2048x784 S124x784 S2048x124 [1] [1] [0] [0] [] []
  dot_S2048x124_S32x124_S2048x32_1_1_0_0_n_n_wf : DotDims.WF S2048x124 S32x124 S2048x32 [1] [1] [0] [0] [] []
  dot_S2048x32_S22x32_S2048x22_1_1_0_0_n_n_wf : DotDims.WF S2048x32 S22x32 S2048x22 [1] [1] [0] [0] [] []
  dot_S2048x22_S21x22_S2048x21_1_1_0_0_n_n_wf : DotDims.WF S2048x22 S21x22 S2048x21 [1] [1] [0] [0] [] []
  dot_S2048x21_S10x21_S2048x10_1_1_0_0_n_n_wf : DotDims.WF S2048x21 S10x21 S2048x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S65536x784.size a
  hwx0_0 : ∀ i : grid0.Coords, EltTy.bits .f32 = 32 ∨ (Rect.block (s := S65536x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S124x784.size a ≤ S124x784.size a
  hwx0_1 : ∀ i : grid0.Coords, EltTy.bits .bf16 = 32 ∨ (Rect.block (s := S124x784) S124x784.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x124.size a ≤ S32x124.size a
  hwx0_2 : ∀ i : grid0.Coords, EltTy.bits .bf16 = 32 ∨ (Rect.block (s := S32x124) S32x124.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S22x32.size a ≤ S22x32.size a
  hwx0_3 : ∀ i : grid0.Coords, EltTy.bits .bf16 = 32 ∨ (Rect.block (s := S22x32) S22x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x22.size a ≤ S1x22.size a
  hwx0_4 : ∀ i : grid0.Coords, EltTy.bits .f32 = 32 ∨ (Rect.block (s := S1x22) S1x22.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S21x22.size a ≤ S21x22.size a
  hwx0_5 : ∀ i : grid0.Coords, EltTy.bits .bf16 = 32 ∨ (Rect.block (s := S21x22) S21x22.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x21.size a ≤ S1x21.size a
  hwx0_6 : ∀ i : grid0.Coords, EltTy.bits .f32 = 32 ∨ (Rect.block (s := S1x21) S1x21.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x21.size a ≤ S10x21.size a
  hwx0_7 : ∀ i : grid0.Coords, EltTy.bits .bf16 = 32 ∨ (Rect.block (s := S10x21) S10x21.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x10.size a ≤ S65536x10.size a
  hwx0_8 : ∀ i : grid0.Coords, EltTy.bits .f32 = 32 ∨ (Rect.block (s := S65536x10) S2048x10.size (cc0_transform_8 i) (hinb0_8 i)).WholeWords (EltTy.packing .f32)

variable [Facts₀]

def dot_S2048x784_S124x784_S2048x124_1_1_0_0_n_n : DotDims S2048x784 S124x784 S2048x124 where
  lhsContracting := [1]
  rhsContracting := [1]
  lhsNonContracting := [0]
  rhsNonContracting := [0]
  lhsBatch := []
  rhsBatch := []
  wf := dot_S2048x784_S124x784_S2048x124_1_1_0_0_n_n_wf
def dot_S2048x124_S32x124_S2048x32_1_1_0_0_n_n : DotDims S2048x124 S32x124 S2048x32 where
  lhsContracting := [1]
  rhsContracting := [1]
  lhsNonContracting := [0]
  rhsNonContracting := [0]
  lhsBatch := []
  rhsBatch := []
  wf := dot_S2048x124_S32x124_S2048x32_1_1_0_0_n_n_wf
def dot_S2048x32_S22x32_S2048x22_1_1_0_0_n_n : DotDims S2048x32 S22x32 S2048x22 where
  lhsContracting := [1]
  rhsContracting := [1]
  lhsNonContracting := [0]
  rhsNonContracting := [0]
  lhsBatch := []
  rhsBatch := []
  wf := dot_S2048x32_S22x32_S2048x22_1_1_0_0_n_n_wf
def dot_S2048x22_S21x22_S2048x21_1_1_0_0_n_n : DotDims S2048x22 S21x22 S2048x21 where
  lhsContracting := [1]
  rhsContracting := [1]
  lhsNonContracting := [0]
  rhsNonContracting := [0]
  lhsBatch := []
  rhsBatch := []
  wf := dot_S2048x22_S21x22_S2048x21_1_1_0_0_n_n_wf
def dot_S2048x21_S10x21_S2048x10_1_1_0_0_n_n : DotDims S2048x21 S10x21 S2048x10 where
  lhsContracting := [1]
  rhsContracting := [1]
  lhsNonContracting := [0]
  rhsNonContracting := [0]
  lhsBatch := []
  rhsBatch := []
  wf := dot_S2048x21_S10x21_S2048x10_1_1_0_0_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S124x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x124.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S22x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x22.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S21x22.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x21.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S10x21.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S2048x10.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x784 : Shape := ⟨2, ![65536, 784]⟩
abbrev S124x784 : Shape := ⟨2, ![124, 784]⟩
abbrev S32x124 : Shape := ⟨2, ![32, 124]⟩
abbrev S22x32 : Shape := ⟨2, ![22, 32]⟩
abbrev S22 : Shape := ⟨1, ![22]⟩
abbrev S21x22 : Shape := ⟨2, ![21, 22]⟩
abbrev S21 : Shape := ⟨1, ![21]⟩
abbrev S10x21 : Shape := ⟨2, ![10, 21]⟩
abbrev S784x124 : Shape := ⟨2, ![784, 124]⟩
abbrev S65536x124 : Shape := ⟨2, ![65536, 124]⟩
abbrev S124x32 : Shape := ⟨2, ![124, 32]⟩
abbrev S65536x32 : Shape := ⟨2, ![65536, 32]⟩
abbrev S_ : Shape := ⟨0, ![]⟩
abbrev S32x22 : Shape := ⟨2, ![32, 22]⟩
abbrev S65536x22 : Shape := ⟨2, ![65536, 22]⟩
abbrev S1x22 : Shape := ⟨2, ![1, 22]⟩
abbrev S22x21 : Shape := ⟨2, ![22, 21]⟩
abbrev S65536x21 : Shape := ⟨2, ![65536, 21]⟩
abbrev S1x21 : Shape := ⟨2, ![1, 21]⟩
abbrev S21x10 : Shape := ⟨2, ![21, 10]⟩
abbrev S65536x10 : Shape := ⟨2, ![65536, 10]⟩
abbrev S65536 : Shape := ⟨1, ![65536]⟩
abbrev S65536x1 : Shape := ⟨2, ![65536, 1]⟩

abbrev nBuf : Space → Nat
  | .hbm => 48
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S124x784, .f32⟩
  | .hbm, ⟨2, _⟩ => ⟨S32x124, .f32⟩
  | .hbm, ⟨3, _⟩ => ⟨S22x32, .f32⟩
  | .hbm, ⟨4, _⟩ => ⟨S22, .f32⟩
  | .hbm, ⟨5, _⟩ => ⟨S21x22, .f32⟩
  | .hbm, ⟨6, _⟩ => ⟨S21, .f32⟩
  | .hbm, ⟨7, _⟩ => ⟨S10x21, .f32⟩
  | .hbm, ⟨8, _⟩ => ⟨S784x124, .f32⟩
  | .hbm, ⟨9, _⟩ => ⟨S65536x124, .f32⟩
  | .hbm, ⟨10, _⟩ => ⟨S124x32, .f32⟩
  | .hbm, ⟨11, _⟩ => ⟨S65536x32, .f32⟩
  | .hbm, ⟨12, _⟩ => ⟨S_, .f32⟩
  | .hbm, ⟨13, _⟩ => ⟨S65536x32, .f32⟩
  | .hbm, ⟨14, _⟩ => ⟨S65536x32, .f32⟩
  | .hbm, ⟨15, _⟩ => ⟨S32x22, .f32⟩
  | .hbm, ⟨16, _⟩ => ⟨S65536x22, .f32⟩
  | .hbm, ⟨17, _⟩ => ⟨S1x22, .f32⟩
  | .hbm, ⟨18, _⟩ => ⟨S65536x22, .f32⟩
  | .hbm, ⟨19, _⟩ => ⟨S65536x22, .f32⟩
  | .hbm, ⟨20, _⟩ => ⟨S_, .f32⟩
  | .hbm, ⟨21, _⟩ => ⟨S65536x22, .f32⟩
  | .hbm, ⟨22, _⟩ => ⟨S65536x22, .f32⟩
  | .hbm, ⟨23, _⟩ => ⟨S22x21, .f32⟩
  | .hbm, ⟨24, _⟩ => ⟨S65536x21, .f32⟩
  | .hbm, ⟨25, _⟩ => ⟨S1x21, .f32⟩
  | .hbm, ⟨26, _⟩ => ⟨S65536x21, .f32⟩
  | .hbm, ⟨27, _⟩ => ⟨S65536x21, .f32⟩
  | .hbm, ⟨28, _⟩ => ⟨S_, .f32⟩
  | .hbm, ⟨29, _⟩ => ⟨S65536x21, .f32⟩
  | .hbm, ⟨30, _⟩ => ⟨S65536x21, .f32⟩
  | .hbm, ⟨31, _⟩ => ⟨S21x10, .f32⟩
  | .hbm, ⟨32, _⟩ => ⟨S65536x10, .f32⟩
  | .hbm, ⟨33, _⟩ => ⟨S_, .f32⟩
  | .hbm, ⟨34, _⟩ => ⟨S65536, .f32⟩
  | .hbm, ⟨35, _⟩ => ⟨S_, .f32⟩
  | .hbm, ⟨36, _⟩ => ⟨S65536, .f32⟩
  | .hbm, ⟨37, _⟩ => ⟨S65536, .f32⟩
  | .hbm, ⟨38, _⟩ => ⟨S65536x1, .f32⟩
  | .hbm, ⟨39, _⟩ => ⟨S65536x10, .f32⟩
  | .hbm, ⟨40, _⟩ => ⟨S65536x10, .f32⟩
  | .hbm, ⟨41, _⟩ => ⟨S65536x10, .f32⟩
  | .hbm, ⟨42, _⟩ => ⟨S_, .f32⟩
  | .hbm, ⟨43, _⟩ => ⟨S65536, .f32⟩
  | .hbm, ⟨44, _⟩ => ⟨S65536x1, .f32⟩
  | .hbm, ⟨45, _⟩ => ⟨S65536x1, .f32⟩
  | .hbm, ⟨46, _⟩ => ⟨S65536x10, .f32⟩
  | .hbm, ⟨47, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_cst : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call2_cst : Ref sig .tc := ⟨.hbm, 28, rfl⟩
abbrev main_call2_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call3_cst : Ref sig .tc := ⟨.hbm, 33, rfl⟩
abbrev main_call3_v0 : Ref sig .tc := ⟨.hbm, 34, rfl⟩
abbrev main_call3_cst_0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_v6 : Ref sig .tc := ⟨.hbm, 41, rfl⟩
abbrev main_call3_cst_1 : Ref sig .tc := ⟨.hbm, 42, rfl⟩
abbrev main_call3_v7 : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_v19 : Ref sig .tc := ⟨.hbm, 47, rfl⟩

abbrev nD : Nat := 1
abbrev τ : Topo := Topo.v7x

variable {F : FTy → Type} [FloatOps F]

class Facts₀ : Prop where
  transposes_S124x784_S784x124_1_0 : S124x784.Transposes [1, 0] S784x124
  transposes_S32x124_S124x32_1_0 : S32x124.Transposes [1, 0] S124x32
  bcast_S_S65536x32 : S_.BroadcastsInDim S65536x32 (![] : Fin 0 → Fin S65536x32.rank)
  transposes_S22x32_S32x22_1_0 : S22x32.Transposes [1, 0] S32x22
  bcast_S22_S1x22_1 : S22.BroadcastsInDim S1x22 (![1] : Fin 1 → Fin S1x22.rank)
  bcast_S1x22_S65536x22_0_1 : S1x22.BroadcastsInDim S65536x22 (![0, 1] : Fin 2 → Fin S65536x22.rank)
  bcast_S_S65536x22 : S_.BroadcastsInDim S65536x22 (![] : Fin 0 → Fin S65536x22.rank)
  transposes_S21x22_S22x21_1_0 : S21x22.Transposes [1, 0] S22x21
  bcast_S21_S1x21_1 : S21.BroadcastsInDim S1x21 (![1] : Fin 1 → Fin S1x21.rank)
  bcast_S1x21_S65536x21_0_1 : S1x21.BroadcastsInDim S65536x21 (![0, 1] : Fin 2 → Fin S65536x21.rank)
  bcast_S_S65536x21 : S_.BroadcastsInDim S65536x21 (![] : Fin 0 → Fin S65536x21.rank)
  transposes_S10x21_S21x10_1_0 : S10x21.Transposes [1, 0] S21x10
  reducesTo_S65536x10_S65536_d1 : S65536x10.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x10_0_1 : S65536x1.BroadcastsInDim S65536x10 (![0, 1] : Fin 2 → Fin S65536x10.rank)
  dot_S65536x784_S784x124_S65536x124_1_0_0_1_n_n_wf : DotDims.WF S65536x784 S784x124 S65536x124 [1] [0] [0] [1] [] []
  dot_S65536x124_S124x32_S65536x32_1_0_0_1_n_n_wf : DotDims.WF S65536x124 S124x32 S65536x32 [1] [0] [0] [1] [] []
  dot_S65536x32_S32x22_S65536x22_1_0_0_1_n_n_wf : DotDims.WF S65536x32 S32x22 S65536x22 [1] [0] [0] [1] [] []
  dot_S65536x22_S22x21_S65536x21_1_0_0_1_n_n_wf : DotDims.WF S65536x22 S22x21 S65536x21 [1] [0] [0] [1] [] []
  dot_S65536x21_S21x10_S65536x10_1_0_0_1_n_n_wf : DotDims.WF S65536x21 S21x10 S65536x10 [1] [0] [0] [1] [] []

variable [Facts₀]

def dot_S65536x784_S784x124_S65536x124_1_0_0_1_n_n : DotDims S65536x784 S784x124 S65536x124 where
  lhsContracting := [1]
  rhsContracting := [0]
  lhsNonContracting := [0]
  rhsNonContracting := [1]
  lhsBatch := []
  rhsBatch := []
  wf := dot_S65536x784_S784x124_S65536x124_1_0_0_1_n_n_wf
def dot_S65536x124_S124x32_S65536x32_1_0_0_1_n_n : DotDims S65536x124 S124x32 S65536x32 where
  lhsContracting := [1]
  rhsContracting := [0]
  lhsNonContracting := [0]
  rhsNonContracting := [1]
  lhsBatch := []
  rhsBatch := []
  wf := dot_S65536x124_S124x32_S65536x32_1_0_0_1_n_n_wf
def dot_S65536x32_S32x22_S65536x22_1_0_0_1_n_n : DotDims S65536x32 S32x22 S65536x22 where
  lhsContracting := [1]
  rhsContracting := [0]
  lhsNonContracting := [0]
  rhsNonContracting := [1]
  lhsBatch := []
  rhsBatch := []
  wf := dot_S65536x32_S32x22_S65536x22_1_0_0_1_n_n_wf
def dot_S65536x22_S22x21_S65536x21_1_0_0_1_n_n : DotDims S65536x22 S22x21 S65536x21 where
  lhsContracting := [1]
  rhsContracting := [0]
  lhsNonContracting := [0]
  rhsNonContracting := [1]
  lhsBatch := []
  rhsBatch := []
  wf := dot_S65536x22_S22x21_S65536x21_1_0_0_1_n_n_wf
def dot_S65536x21_S21x10_S65536x10_1_0_0_1_n_n : DotDims S65536x21 S21x10 S65536x10 where
  lhsContracting := [1]
  rhsContracting := [0]
  lhsNonContracting := [0]
  rhsNonContracting := [1]
  lhsBatch := []
  rhsBatch := []
  wf := dot_S65536x21_S21x10_S65536x10_1_0_0_1_n_n_wf

class Facts : Prop extends Facts₀ where

variable [Facts]
-- ==== Proof.RowNet.lean ====
/-
  One row of the network, over the extended reals.

  A row x ∈ EReal^784 goes through five affine maps, each a matrix applied from the right and TRANSPOSED
  (y n = ∑ k, h k * w n k: the weight's rows are the outputs), the second to fourth followed by max(·, 0), the third
  and fourth with a bias added before the max; the last layer's ten values z are then normalised as
  z n − M − log ∑ j exp (z j − M), with M the largest of the z j (taken as a fold of max from −∞, and once more
  against −∞, as both programs spell it).  Both programs compute exactly this function of a row of the input and of
  the weights: the only freedom either has is the ORDER in which a sum's terms are added, which a sum over a finite
  type does not record.  The two float words that occur — +0 and −∞ — are kept as the words they are and never
  evaluated: the same word stands on both sides.
-/
import Idealize.ShloMosaic.PureOps.Ideal

noncomputable section

namespace Cert.RowNet

open Idealize.ShloMosaic

/-- The word of +0.0, as an extended real. -/
abbrev zeroW : EReal := Ideal.ofBits .f32 0x00000000#32
/-- The word of −∞, as an extended real. -/
abbrev negInfW : EReal := Ideal.ofBits .f32 0xFF800000#32

/-- A weight matrix applied to a row, contracting the weight's SECOND index: `(lin w h) n = ∑ k, h k * w n k`. -/
def lin {K N : Nat} (w : Fin N → Fin K → EReal) (h : Fin K → EReal) : Fin N → EReal :=
  fun n => ∑ k : Fin K, h k * w n k

/-- max(v, 0), the zero being the word +0.0. -/
def relu (v : EReal) : EReal := max v zeroW

/-- The largest entry of a row: the fold of max from −∞ over the entries, and max with −∞ once more. -/
def rowMax {N : Nat} (v : Fin N → EReal) : EReal :=
  max negInfW ((Finset.univ : Finset (Fin N)).fold max negInfW v)

/-- A row minus its largest entry, minus the logarithm of the sum of the exponentials of that difference. -/
def logSoftmax {N : Nat} (v : Fin N → EReal) : Fin N → EReal :=
  fun n => (v n - rowMax v) - Ideal.log (∑ j : Fin N, Ideal.exp (v j - rowMax v))

/-- The second layer: 124 → 32, then max(·, 0). -/
def hidden2 (w1 : Fin 32 → Fin 124 → EReal) (h : Fin 124 → EReal) : Fin 32 → EReal :=
  fun n => relu (lin w1 h n)

/-- The third layer: 32 → 22, a bias, then max(·, 0). -/
def hidden3 (w3 : Fin 22 → Fin 32 → EReal) (b3 : Fin 22 → EReal) (h : Fin 32 → EReal) : Fin 22 → EReal :=
  fun n => relu (lin w3 h n + b3 n)

/-- The fourth layer: 22 → 21, a bias, then max(·, 0). -/
def hidden4 (w5 : Fin 21 → Fin 22 → EReal) (b5 : Fin 21 → EReal) (h : Fin 22 → EReal) : Fin 21 → EReal :=
  fun n => relu (lin w5 h n + b5 n)

/-- The whole network on one row. -/
def net (x : Fin 784 → EReal) (w0 : Fin 124 → Fin 784 → EReal) (w1 : Fin 32 → Fin 124 → EReal)
    (w3 : Fin 22 → Fin 32 → EReal) (b3 : Fin 22 → EReal) (w5 : Fin 21 → Fin 22 → EReal) (b5 : Fin 21 → EReal)
    (w7 : Fin 10 → Fin 21 → EReal) : Fin 10 → EReal :=
  logSoftmax (lin w7 (hidden4 w5 b5 (hidden3 w3 b3 (hidden2 w1 (lin w0 x)))))

end Cert.RowNet

end
-- ==== Proof.Rows.lean ====
/-
  Rows and entries of arrays, and the network applied row by row.

  An array of shape [R, K] is read one row at a time (`rowOf a p` is k ↦ a (p, k)), a weight of shape [N, K] as the
  function (n, k) ↦ w (n, k), a bias of shape [N] or [1, N] as n ↦ b n.  `wholeNet` is the [65536, 10] array whose
  row r is the network (RowNet.lean) applied to row r of the input: every row is treated alike and on its own, which
  is why a tiling of the rows into blocks computes the same array.
-/
import Idealize.ShloMosaic.Lib.ValueIdx
import proofs.«426243_j18442589569842_3_alg».proof.Proof.RowNet

noncomputable section

namespace Cert.Rows

open Idealize.ShloMosaic Idealize.ShloMosaic.ValueIdx

/-- Row `p` of a two-axis array. -/
def rowOf {R K : Nat} (a : (⟨2, ![R, K]⟩ : Shape).Idx → EReal) (p : Fin R) : Fin K → EReal := fun k => a (ix2 p k)

/-- A two-axis array as a function of its two coordinates. -/
def mat {N K : Nat} (w : (⟨2, ![N, K]⟩ : Shape).Idx → EReal) : Fin N → Fin K → EReal := fun n k => w (ix2 n k)

/-- The one row of a [1, N] array. -/
def row1 {N : Nat} (b : (⟨2, ![1, N]⟩ : Shape).Idx → EReal) : Fin N → EReal := fun n => b (ix2 0 n)

/-- A one-axis array as a function of its coordinate. -/
def vec {N : Nat} (b : (⟨1, ![N]⟩ : Shape).Idx → EReal) : Fin N → EReal := fun n => b (ix1 n)

theorem rowOf_apply {R K : Nat} (a : (⟨2, ![R, K]⟩ : Shape).Idx → EReal) (p : Fin R) (k : Fin K) :
    rowOf a p k = a (ix2 p k) := rfl

/-- The network applied to every row of the input: entry (r, n) is the n-th output of the network on row r. -/
def wholeNet (x : (⟨2, ![65536, 784]⟩ : Shape).Idx → EReal) (w0 : (⟨2, ![124, 784]⟩ : Shape).Idx → EReal)
    (w1 : (⟨2, ![32, 124]⟩ : Shape).Idx → EReal) (w3 : (⟨2, ![22, 32]⟩ : Shape).Idx → EReal)
    (b3 : (⟨1, ![22]⟩ : Shape).Idx → EReal) (w5 : (⟨2, ![21, 22]⟩ : Shape).Idx → EReal)
    (b5 : (⟨1, ![21]⟩ : Shape).Idx → EReal) (w7 : (⟨2, ![10, 21]⟩ : Shape).Idx → EReal) :
    (⟨2, ![65536, 10]⟩ : Shape).Idx → EReal :=
  fun i => Cert.RowNet.net (rowOf x (i 0)) (mat w0) (mat w1) (mat w3) (vec b3) (mat w5) (vec b5) (mat w7) (i 1)

end Cert.Rows

end
-- ==== Proof.RefRow.lean ====
/-
  The reference, read row by row.

  The reference applies the same five layers and the same normalisation to the whole [65536, 784] input at once: it
  transposes each weight and contracts the input's last axis with the transposed weight's first, which at an entry is
  again the input's row against the weight's row; its biases are broadcast from [N] through [1, N] to every row; its
  max(·, 0) and its normalisation are spelt with the same operations and the same two float words as the kernel's.
  Each stage is read at an entry by the lemmas of the reference's run read back (RefRead.lean); the one stage those do
  not read, the maximum over a row, is the fold of max from −∞ over the row's ten entries.  So row r of the
  reference's result is the network (RowNet.lean) of row r of the input.
-/
import proofs.«426243_j18442589569842_3_alg».proof.Proof.RefRead
import proofs.«426243_j18442589569842_3_alg».proof.Proof.Rows
import Idealize.ShloMosaic.PureOps.Ideal.Laws

noncomputable section

namespace Cert.ReferenceIdeal.Row

open Cert.ReferenceIdeal Cert.ReferenceIdeal.Gen Cert.ReferenceIdeal.ReadP Idealize.ShloMosaic Idealize.ShloMosaic.ValueIdx
open Cert.RowNet Cert.Rows

variable (x0 : (⟨S65536x784, .f32⟩ : BufTy).Contents (Elt Ideal)) (x1 : (⟨S124x784, .f32⟩ : BufTy).Contents (Elt Ideal))
  (x2 : (⟨S32x124, .f32⟩ : BufTy).Contents (Elt Ideal)) (x3 : (⟨S22x32, .f32⟩ : BufTy).Contents (Elt Ideal))
  (x4 : (⟨S22, .f32⟩ : BufTy).Contents (Elt Ideal)) (x5 : (⟨S21x22, .f32⟩ : BufTy).Contents (Elt Ideal))
  (x6 : (⟨S21, .f32⟩ : BufTy).Contents (Elt Ideal)) (x7 : (⟨S10x21, .f32⟩ : BufTy).Contents (Elt Ideal))

/-! ## The five layers at a row -/

theorem dense1_row (r : Fin 65536) : rowOf (val_main_v1 (F := Ideal) x0 x1) r = lin (mat x1) (rowOf x0 r) := by
  funext n
  show val_main_v1 (F := Ideal) x0 x1 (ix2 r n) = ∑ k : Fin 784, x0 (ix2 r k) * x1 (ix2 n k)
  rw [val_main_v1_apply]
  refine Finset.sum_congr rfl fun k _ => ?_
  rw [val_main_v0_apply]
  exact congrArg₂ (fun (a b : EReal) => a * b) (congrArg x0 (funext fun a => Fin.ext (by match a with | ⟨0, _⟩ => rfl | ⟨1, _⟩ => rfl))) (congrArg x1 (funext fun a => Fin.ext (by match a with | ⟨0, _⟩ => rfl | ⟨1, _⟩ => rfl)))

theorem dense2_row (r : Fin 65536) :
    rowOf (val_main_v4 (F := Ideal) x0 x1 x2) r = hidden2 (mat x2) (rowOf (val_main_v1 (F := Ideal) x0 x1) r) := by
  funext n
  show max (val_main_v3 (F := Ideal) x0 x1 x2 (ix2 r n)) (val_main_call0_v0 (F := Ideal) (ix2 r n))
    = max (∑ k : Fin 124, val_main_v1 (F := Ideal) x0 x1 (ix2 r k) * x2 (ix2 n k)) zeroW
  rw [val_main_v3_apply, val_main_call0_v0_apply, val_main_call0_cst_apply]
  refine congrArg (fun z => max z zeroW) (Finset.sum_congr rfl fun k _ => ?_)
  rw [val_main_v2_apply]
  exact congrArg₂ (fun (a b : EReal) => a * b) (congrArg (val_main_v1 (F := Ideal) x0 x1) (funext fun a => Fin.ext (by match a with | ⟨0, _⟩ => rfl | ⟨1, _⟩ => rfl))) (congrArg x2 (funext fun a => Fin.ext (by match a with | ⟨0, _⟩ => rfl | ⟨1, _⟩ => rfl)))

theorem dense3_row (r : Fin 65536) :
    rowOf (val_main_v10 (F := Ideal) x0 x1 x2 x3 x4) r = hidden3 (mat x3) (vec x4) (rowOf (val_main_v4 (F := Ideal) x0 x1 x2) r) := by
  funext n
  show max (val_main_v6 (F := Ideal) x0 x1 x2 x3 (ix2 r n) + val_main_v8 (F := Ideal) x4 (ix2 r n)) (val_main_call1_v0 (F := Ideal) (ix2 r n))
    = max ((∑ k : Fin 32, val_main_v4 (F := Ideal) x0 x1 x2 (ix2 r k) * x3 (ix2 n k)) + x4 (ix1 n)) zeroW
  rw [val_main_v6_apply, val_main_v8_apply, val_main_v7_apply, val_main_call1_v0_apply, val_main_call1_cst_apply]
  refine congrArg₂ (fun (z b : EReal) => max (z + b) zeroW) (Finset.sum_congr rfl fun k _ => ?_) (congrArg x4 (funext fun a => Fin.ext (by match a with | ⟨0, _⟩ => rfl)))
  rw [val_main_v5_apply]
  exact congrArg₂ (fun (a b : EReal) => a * b) (congrArg (val_main_v4 (F := Ideal) x0 x1 x2) (funext fun a => Fin.ext (by match a with | ⟨0, _⟩ => rfl | ⟨1, _⟩ => rfl))) (congrArg x3 (funext fun a => Fin.ext (by match a with | ⟨0, _⟩ => rfl | ⟨1, _⟩ => rfl)))

theorem dense4_row (r : Fin 65536) :
    rowOf (val_main_v16 (F := Ideal) x0 x1 x2 x3 x4 x5 x6) r = hidden4 (mat x5) (vec x6) (rowOf (val_main_v10 (F := Ideal) x0 x1 x2 x3 x4) r) := by
  funext n
  show max (val_main_v12 (F := Ideal) x0 x1 x2 x3 x4 x5 (ix2 r n) + val_main_v14 (F := Ideal) x6 (ix2 r n)) (val_main_call2_v0 (F := Ideal) (ix2 r n))
    = max ((∑ k : Fin 22, val_main_v10 (F := Ideal) x0 x1 x2 x3 x4 (ix2 r k) * x5 (ix2 n k)) + x6 (ix1 n)) zeroW
  rw [val_main_v12_apply, val_main_v14_apply, val_main_v13_apply, val_main_call2_v0_apply, val_main_call2_cst_apply]
  refine congrArg₂ (fun (z b : EReal) => max (z + b) zeroW) (Finset.sum_congr rfl fun k _ => ?_) (congrArg x6 (funext fun a => Fin.ext (by match a with | ⟨0, _⟩ => rfl)))
  rw [val_main_v11_apply]
  exact congrArg₂ (fun (a b : EReal) => a * b) (congrArg (val_main_v10 (F := Ideal) x0 x1 x2 x3 x4) (funext fun a => Fin.ext (by match a with | ⟨0, _⟩ => rfl | ⟨1, _⟩ => rfl))) (congrArg x5 (funext fun a => Fin.ext (by match a with | ⟨0, _⟩ => rfl | ⟨1, _⟩ => rfl)))

theorem dense5_row (r : Fin 65536) :
    rowOf (val_main_v18 (F := Ideal) x0 x1 x2 x3 x4 x5 x6 x7) r = lin (mat x7) (rowOf (val_main_v16 (F := Ideal) x0 x1 x2 x3 x4 x5 x6) r) := by
  funext n
  show val_main_v18 (F := Ideal) x0 x1 x2 x3 x4 x5 x6 x7 (ix2 r n) = ∑ k : Fin 21, val_main_v16 (F := Ideal) x0 x1 x2 x3 x4 x5 x6 (ix2 r k) * x7 (ix2 n k)
  rw [val_main_v18_apply]
  refine Finset.sum_congr rfl fun k _ => ?_
  rw [val_main_v17_apply]
  exact congrArg₂ (fun (a b : EReal) => a * b) (congrArg (val_main_v16 (F := Ideal) x0 x1 x2 x3 x4 x5 x6) (funext fun a => Fin.ext (by match a with | ⟨0, _⟩ => rfl | ⟨1, _⟩ => rfl))) (congrArg x7 (funext fun a => Fin.ext (by match a with | ⟨0, _⟩ => rfl | ⟨1, _⟩ => rfl)))

/-! ## The normalisation at a row -/

/-- The host's maximum over the second axis of ANY [65536, 10] array, from the word −∞: the fold of max over the
    row's ten entries. -/
theorem hostmax_gen (y : (⟨S65536x10, .f32⟩ : BufTy).Contents (Elt Ideal)) (r : Fin 65536) :
    Host.reduce (FloatOps.maximumf (F := Ideal) (φ := .f32)) y (val_main_call3_cst (F := Ideal)) reducesTo_S65536x10_S65536_d1 h_S_ (ix1 r)
      = (Finset.univ : Finset (Fin 10)).fold max negInfW (rowOf y r) := by
  have h := Host.reduce_eq_fold_single (FloatOps.maximumf (F := Ideal) (φ := .f32)) y (val_main_call3_cst (F := Ideal))
    reducesTo_S65536x10_S65536_d1 (by decide) h_S_ (ix1 r)
  refine h.trans ?_
  exact Finset.fold_congr (fun k _ => congrArg y (funext fun a => Fin.ext (by match a with | ⟨0, _⟩ => rfl | ⟨1, _⟩ => rfl)))

theorem hostmax_apply (r : Fin 65536) :
    val_main_call3_v0 (F := Ideal) x0 x1 x2 x3 x4 x5 x6 x7 (ix1 r)
      = (Finset.univ : Finset (Fin 10)).fold max negInfW (rowOf (val_main_v18 (F := Ideal) x0 x1 x2 x3 x4 x5 x6 x7) r) := by
  unfold val_main_call3_v0
  exact hostmax_gen _ r

theorem refmax_apply (r : Fin 65536) :
    val_main_call3_v2 (F := Ideal) x0 x1 x2 x3 x4 x5 x6 x7 (ix1 r) = rowMax (rowOf (val_main_v18 (F := Ideal) x0 x1 x2 x3 x4 x5 x6 x7) r) := by
  rw [val_main_call3_v2_apply, val_main_call3_v1_apply, val_main_call3_cst_0_apply, hostmax_apply, Ideal.maximumf_def, Ideal.ofBits_def]
  generalize val_main_v18 (F := Ideal) x0 x1 x2 x3 x4 x5 x6 x7 = y
  rfl

theorem refshift_apply (r : Fin 65536) (q : Fin 10) :
    val_main_call3_v5 (F := Ideal) x0 x1 x2 x3 x4 x5 x6 x7 (ix2 r q)
      = val_main_v18 (F := Ideal) x0 x1 x2 x3 x4 x5 x6 x7 (ix2 r q) - rowMax (rowOf (val_main_v18 (F := Ideal) x0 x1 x2 x3 x4 x5 x6 x7) r) := by
  rw [val_main_call3_v5_apply, val_main_call3_v4_apply, val_main_call3_v3_apply, Ideal.subf_def]
  have e : idx_main_call3_v3 (idx_main_call3_v4 (ix2 r q)) = ix1 r := funext fun a => Fin.ext (by match a with | ⟨0, _⟩ => rfl)
  rw [e, refmax_apply]

theorem reflogsum_apply (r : Fin 65536) (q : Fin 10) :
    val_main_call3_v10 (F := Ideal) x0 x1 x2 x3 x4 x5 x6 x7 (ix2 r q)
      = Ideal.log (∑ j : Fin 10, Ideal.exp (val_main_v18 (F := Ideal) x0 x1 x2 x3 x4 x5 x6 x7 (ix2 r j) - rowMax (rowOf (val_main_v18 (F := Ideal) x0 x1 x2 x3 x4 x5 x6 x7) r))) := by
  rw [val_main_call3_v10_apply, val_main_call3_v9_apply, val_main_call3_v8_apply, val_main_call3_v7_apply,
    val_main_call3_cst_1_apply, Ideal.hostUnary_log_def, Ideal.ofBits_def, Ideal.ofBits_zero_f32, zero_add]
  refine congrArg Ideal.log (Finset.sum_congr rfl fun j _ => ?_)
  rw [val_main_call3_v6_apply, Ideal.hostUnary_exp_def]
  have e : idx_main_call3_v7 (idx_main_call3_v8 (idx_main_call3_v10 (ix2 r q))) j = ix2 r j := funext fun a => Fin.ext (by match a with | ⟨0, _⟩ => rfl | ⟨1, _⟩ => rfl)
  rw [e, refshift_apply]

theorem norm_row (r : Fin 65536) :
    rowOf (val_main_v19 (F := Ideal) x0 x1 x2 x3 x4 x5 x6 x7) r = logSoftmax (rowOf (val_main_v18 (F := Ideal) x0 x1 x2 x3 x4 x5 x6 x7) r) := by
  funext q
  rw [rowOf_apply, val_main_v19_apply, Ideal.subf_def, refshift_apply, reflogsum_apply]
  generalize val_main_v18 (F := Ideal) x0 x1 x2 x3 x4 x5 x6 x7 = y
  rfl

/-! ## The whole reference at a row -/

/-- ROW r OF THE REFERENCE'S RESULT is the network of row r of the input. -/
theorem ref_row (r : Fin 65536) :
    rowOf (val_main_v19 (F := Ideal) x0 x1 x2 x3 x4 x5 x6 x7) r
      = net (rowOf x0 r) (mat x1) (mat x2) (mat x3) (vec x4) (mat x5) (vec x6) (mat x7) := by
  rw [norm_row, dense5_row, dense4_row, dense3_row, dense2_row, dense1_row]
  rfl

/-- So the reference's result is the network applied to every row. -/
theorem ref_eq_wholeNet : val_main_v19 (F := Ideal) x0 x1 x2 x3 x4 x5 x6 x7 = wholeNet x0 x1 x2 x3 x4 x5 x6 x7 := by
  funext i
  obtain ⟨r, q, rfl⟩ : ∃ (r : Fin 65536) (q : Fin 10), i = ix2 r q := ⟨i 0, i 1, eq_ix2 i⟩
  exact congrFun (ref_row x0 x1 x2 x3 x4 x5 x6 x7 r) q

end Cert.ReferenceIdeal.Row

end
-- ==== Proof.LibDotRows.lean ====
/-
  A product of two matrices that contracts the LAST axis of both, read at an entry.

  For a left operand of shape [R, K], a right operand of shape [N, K] and dimension numbers
  "contract axis 1 with axis 1, free axes 0 and 0, no batch axes", the contraction shape has the one axis of extent
  K, the left operand is read at (p, k) and the right at (n, k); so over the extended reals the product accumulated
  into the zero splat is, at (p, n), the plain sum ∑ k, l (p, k) * r (n, k): row p of the left operand against row n
  of the right.  Stated for ANY such record of dimension numbers, whatever its name, from the six equations that
  say which lists it holds (each `rfl` for a printed record).
-/
import Idealize.ShloMosaic.PureOps.Ideal.Laws
import Idealize.ShloMosaic.Lib.ValueIdx

noncomputable section

namespace Cert.LibDotRows

open Idealize.ShloMosaic Idealize.ShloMosaic.ValueIdx

variable {R K N : Nat} (D : DotDims ⟨2, ![R, K]⟩ ⟨2, ![N, K]⟩ ⟨2, ![R, N]⟩)

/-- Two coordinates of an index named by equal numbers are equal. -/
private theorem coord_congr {s : Shape} (i : s.Idx) (a b : Nat) (ha : a < s.rank) (hb : b < s.rank) (h : a = b) :
    (i ⟨a, ha⟩).val = (i ⟨b, hb⟩).val := by subst h; rfl

/-- One axis is contracted. -/
theorem contr_rank (hlc : D.lhsContracting = [1]) : D.contr.rank = 1 := by
  rw [D.rank_contr, hlc]; rfl

/-- Its extent is K, the left operand's second extent. -/
theorem contr_size (hlc : D.lhsContracting = [1]) :
    D.contr.size ⟨0, by rw [contr_rank D hlc]; exact Nat.one_pos⟩ = K := by
  have h := D.size_contr 0 (by rw [hlc]; exact Nat.one_pos)
  refine h.trans ?_
  simp only [hlc, List.getElem_cons_zero]
  rfl

/-- The left operand's row is the result's row. -/
theorem lhs_row (hln : D.lhsNonContracting = [0]) (hlb : D.lhsBatch = [])
    (i : (⟨2, ![R, N]⟩ : Shape).Idx) (q : D.contr.Idx) : (D.lhsIdx i q 0).val = (i 0).val := by
  unfold DotDims.lhsIdx
  rw [dif_neg (show ¬(0 : Fin (⟨2, ![R, K]⟩ : Shape).rank) ∈ D.lhsBatch by rw [hlb]; exact List.not_mem_nil),
    dif_pos (show (0 : Fin (⟨2, ![R, K]⟩ : Shape).rank) ∈ D.lhsNonContracting by rw [hln]; exact List.mem_singleton.mpr rfl)]
  simp only [Fin.val_cast]
  exact coord_congr i _ 0 _ (show 0 < 2 from Nat.two_pos) (by simp [hlb, hln])

/-- The left operand's column is the contraction coordinate. -/
theorem lhs_col (hlc : D.lhsContracting = [1]) (i : (⟨2, ![R, N]⟩ : Shape).Idx) (q : D.contr.Idx) :
    (D.lhsIdx i q 1).val = (q ⟨0, by rw [contr_rank D hlc]; exact Nat.one_pos⟩).val :=
  D.lhsIdx_val_of_single hlc i q

/-- The right operand's row is the result's column. -/
theorem rhs_row (hln : D.lhsNonContracting = [0]) (hrn : D.rhsNonContracting = [0]) (hlb : D.lhsBatch = [])
    (hrb : D.rhsBatch = []) (i : (⟨2, ![R, N]⟩ : Shape).Idx) (q : D.contr.Idx) : (D.rhsIdx i q 0).val = (i 1).val := by
  unfold DotDims.rhsIdx
  rw [dif_neg (show ¬(0 : Fin (⟨2, ![N, K]⟩ : Shape).rank) ∈ D.rhsBatch by rw [hrb]; exact List.not_mem_nil),
    dif_pos (show (0 : Fin (⟨2, ![N, K]⟩ : Shape).rank) ∈ D.rhsNonContracting by rw [hrn]; exact List.mem_singleton.mpr rfl)]
  simp only [Fin.val_cast]
  exact coord_congr i _ 1 _ (show 1 < 2 from Nat.one_lt_two) (by simp [hlb, hln, hrn])

/-- The right operand's column is the contraction coordinate. -/
theorem rhs_col (hlc : D.lhsContracting = [1]) (hrc : D.rhsContracting = [1]) (i : (⟨2, ![R, N]⟩ : Shape).Idx)
    (q : D.contr.Idx) : (D.rhsIdx i q 1).val = (q ⟨0, by rw [contr_rank D hlc]; exact Nat.one_pos⟩).val :=
  D.rhsIdx_val_of_single hrc i q

/-- THE PRODUCT AT AN ENTRY: accumulated into the zero splat, at (p, n), it is row p of the left operand against
    row n of the right. -/
theorem matmul_zero_rows {φ₁ φ₂ : FTy} (prec : Option ContractPrecision)
    (hlc : D.lhsContracting = [1]) (hrc : D.rhsContracting = [1]) (hln : D.lhsNonContracting = [0])
    (hrn : D.rhsNonContracting = [0]) (hlb : D.lhsBatch = []) (hrb : D.rhsBatch = [])
    (l : FVec Ideal ⟨2, ![R, K]⟩ φ₁) (r : FVec Ideal ⟨2, ![N, K]⟩ φ₂) (p : Fin R) (n : Fin N) :
    FloatOps.matmul D prec l r (constant ⟨2, ![R, N]⟩ .f32 0x00000000#32) (ix2 p n)
      = ∑ k : Fin K, l (ix2 p k) * r (ix2 n k) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 p n) ((contrEquiv1 D K (contr_rank D hlc) (contr_size D hlc)).symm k) = ix2 p k :=
    funext fun a => Fin.ext (by
      match a with
      | ⟨0, _⟩ => exact lhs_row D hln hlb _ _
      | ⟨1, _⟩ => exact (lhs_col D hlc _ _).trans hk)
  have er : D.rhsIdx (ix2 p n) ((contrEquiv1 D K (contr_rank D hlc) (contr_size D hlc)).symm k) = ix2 n k :=
    funext fun a => Fin.ext (by
      match a with
      | ⟨0, _⟩ => exact rhs_row D hln hrn hlb hrb _ _
      | ⟨1, _⟩ => exact (rhs_col D hlc hrc _ _).trans hk)
  rw [el, er]

end Cert.LibDotRows

end
-- ==== Proof.KernelRow.lean ====
/-
  The kernel's body on one block of 2048 rows, read row by row.

  The body loads the block of the input and the (whole) weights and biases, and computes its [2048, 10] result in
  five layers and a normalisation; each layer treats the 2048 rows alike.  Here each layer is named, the body's
  value is shown to be their composition (by unfolding), and each layer is read at a row: a product contracting the
  last axes is the row against the weight's rows (LibDotRows.lean), the rounding to a narrower float format and a
  cast to the same shape are the identity over the extended reals, a bias row broadcast down the block adds the
  bias's n-th entry to the n-th output, max(·, 0) acts entry by entry; the row maximum is a fold of max from −∞ over
  the row's ten entries and the sum of exponentials a sum over them.  So row p of the body's result is the network
  (RowNet.lean) of row p of the block.
-/
import proofs.«426243_j18442589569842_3_alg».proof.Proof.Gen.KernelIdeal.Skeleton
import proofs.«426243_j18442589569842_3_alg».proof.Proof.Rows
import proofs.«426243_j18442589569842_3_alg».proof.Proof.LibDotRows
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.RowNet Cert.Rows

/-! ## One dense layer at an entry -/

/-- A product of a [R, K] array, rounded to the narrower format, with a [N, K] weight recast to its own shape,
    accumulated into zeros: at (p, n) it is row p of the array against row n of the weight.  The rounding and the
    cast are the identity over the extended reals. -/
theorem dense_apply {R K N : Nat} (D : DotDims ⟨2, ![R, K]⟩ ⟨2, ![N, K]⟩ ⟨2, ![R, N]⟩)
    (hlc : D.lhsContracting = [1]) (hrc : D.rhsContracting = [1]) (hln : D.lhsNonContracting = [0])
    (hrn : D.rhsNonContracting = [0]) (hlb : D.lhsBatch = []) (hrb : D.rhsBatch = [])
    (a : FVec Ideal ⟨2, ![R, K]⟩ .f32) (w : FVec Ideal ⟨2, ![N, K]⟩ .bf16) (hb : FTy.bits .bf16 < FTy.bits .f32)
    (hc : (⟨2, ![N, K]⟩ : Shape).ShapeCasts ⟨2, ![N, K]⟩) (p : Fin R) (n : Fin N) :
    FloatOps.matmul (F := Ideal) D none (truncf .bf16 a hb : FVec Ideal ⟨2, ![R, K]⟩ .bf16)
        (shapeCast ⟨2, ![N, K]⟩ w hc : FVec Ideal ⟨2, ![N, K]⟩ .bf16) (constant (F := Ideal) ⟨2, ![R, N]⟩ .f32 0x00000000#32) (ix2 p n)
      = ∑ k : Fin K, a (ix2 p k) * w (ix2 n k) := by
  rw [shapeCast_self]
  exact LibDotRows.matmul_zero_rows D none hlc hrc hln hrn hlb hrb (truncf .bf16 a hb : FVec Ideal ⟨2, ![R, K]⟩ .bf16) w p n

/-! ## The layers -/

/-- The first layer: the block against the first weight, 784 → 124. -/
def layer1 (P0 : FVec Ideal S2048x784 .f32) (P1 : FVec Ideal S124x784 .bf16) : FVec Ideal S2048x124 .f32 :=
  matmul (F := Ideal) dot_S2048x784_S124x784_S2048x124_1_1_0_0_n_n none (truncf .bf16 P0 bitsLt_bf16_f32 : FVec Ideal S2048x784 .bf16)
    (shapeCast S124x784 P1 shapeCasts_S124x784_S124x784 : FVec Ideal S124x784 .bf16) (constant (F := Ideal) S2048x124 .f32 0x00000000#32)

/-- The second layer: 124 → 32, then max(·, 0). -/
def layer2 (a : FVec Ideal S2048x124 .f32) (P2 : FVec Ideal S32x124 .bf16) : FVec Ideal S2048x32 .f32 :=
  maximumf (F := Ideal) (matmul (F := Ideal) dot_S2048x124_S32x124_S2048x32_1_1_0_0_n_n none (truncf .bf16 a bitsLt_bf16_f32 : FVec Ideal S2048x124 .bf16)
    (shapeCast S32x124 P2 shapeCasts_S32x124_S32x124 : FVec Ideal S32x124 .bf16) (constant (F := Ideal) S2048x32 .f32 0x00000000#32))
    (broadcast S2048x32 (Scalar.ofBits (F := Ideal) .f32 0x00000000#32))

/-- The third layer: 32 → 22, the bias row added, then max(·, 0). -/
def layer3 (a : FVec Ideal S2048x32 .f32) (P3 : FVec Ideal S22x32 .bf16) (P4 : FVec Ideal S1x22 .f32) : FVec Ideal S2048x22 .f32 :=
  maximumf (F := Ideal) (addf (F := Ideal) (matmul (F := Ideal) dot_S2048x32_S22x32_S2048x22_1_1_0_0_n_n none (truncf .bf16 a bitsLt_bf16_f32 : FVec Ideal S2048x32 .bf16)
      (shapeCast S22x32 P3 shapeCasts_S22x32_S22x32 : FVec Ideal S22x32 .bf16) (constant (F := Ideal) S2048x22 .f32 0x00000000#32))
    (broadcastTo S2048x22 (shapeCast S1x22 P4 shapeCasts_S1x22_S1x22 : FVec Ideal S1x22 .f32) broadcasts_S1x22_S2048x22 : FVec Ideal S2048x22 .f32))
    (broadcast S2048x22 (Scalar.ofBits (F := Ideal) .f32 0x00000000#32))

/-- The fourth layer: 22 → 21, the bias row added, then max(·, 0). -/
def layer4 (a : FVec Ideal S2048x22 .f32) (P5 : FVec Ideal S21x22 .bf16) (P6 : FVec Ideal S1x21 .f32) : FVec Ideal S2048x21 .f32 :=
  maximumf (F := Ideal) (addf (F := Ideal) (matmul (F := Ideal) dot_S2048x22_S21x22_S2048x21_1_1_0_0_n_n none (truncf .bf16 a bitsLt_bf16_f32 : FVec Ideal S2048x22 .bf16)
      (shapeCast S21x22 P5 shapeCasts_S21x22_S21x22 : FVec Ideal S21x22 .bf16) (constant (F := Ideal) S2048x21 .f32 0x00000000#32))
    (broadcastTo S2048x21 (shapeCast S1x21 P6 shapeCasts_S1x21_S1x21 : FVec Ideal S1x21 .f32) broadcasts_S1x21_S2048x21 : FVec Ideal S2048x21 .f32))
    (broadcast S2048x21 (Scalar.ofBits (F := Ideal) .f32 0x00000000#32))

/-- The last layer: 21 → 10. -/
def layer5 (a : FVec Ideal S2048x21 .f32) (P7 : FVec Ideal S10x21 .bf16) : FVec Ideal S2048x10 .f32 :=
  matmul (F := Ideal) dot_S2048x21_S10x21_S2048x10_1_1_0_0_n_n none (truncf .bf16 a bitsLt_bf16_f32 : FVec Ideal S2048x21 .bf16)
    (shapeCast S10x21 P7 shapeCasts_S10x21_S10x21 : FVec Ideal S10x21 .bf16) (constant (F := Ideal) S2048x10 .f32 0x00000000#32)

/-- The body's value before the normalisation is the five layers composed. -/
theorem pay2_layers (P0 : FVec Ideal S2048x784 .f32) (P1 : FVec Ideal S124x784 .bf16) (P2 : FVec Ideal S32x124 .bf16)
    (P3 : FVec Ideal S22x32 .bf16) (P4 : FVec Ideal S1x22 .f32) (P5 : FVec Ideal S21x22 .bf16) (P6 : FVec Ideal S1x21 .f32)
    (P7 : FVec Ideal S10x21 .bf16) :
    k0_pay2 (F := Ideal) P0 P1 P2 P3 P4 P5 P6 P7
      = layer5 (layer4 (layer3 (layer2 (layer1 P0 P1) P2) P3 P4) P5 P6) P7 := rfl

/-! ## Each layer at a row -/

theorem layer1_row (P0 : FVec Ideal S2048x784 .f32) (P1 : FVec Ideal S124x784 .bf16) (p : Fin 2048) :
    rowOf (layer1 P0 P1) p = lin (mat P1) (rowOf P0 p) := by
  funext n
  exact dense_apply dot_S2048x784_S124x784_S2048x124_1_1_0_0_n_n rfl rfl rfl rfl rfl rfl P0 P1 bitsLt_bf16_f32 shapeCasts_S124x784_S124x784 p n

theorem layer2_row (a : FVec Ideal S2048x124 .f32) (P2 : FVec Ideal S32x124 .bf16) (p : Fin 2048) :
    rowOf (layer2 a P2) p = hidden2 (mat P2) (rowOf a p) := by
  funext n
  exact congrArg (fun z => max z zeroW)
    (dense_apply dot_S2048x124_S32x124_S2048x32_1_1_0_0_n_n rfl rfl rfl rfl rfl rfl a P2 bitsLt_bf16_f32 shapeCasts_S32x124_S32x124 p n)

/-- A bias row of 22 entries broadcast down the block reads its n-th entry in column n. -/
theorem bias22_apply (P4 : FVec Ideal S1x22 .f32) (p : Fin 2048) (n : Fin 22) :
    (broadcastTo S2048x22 (shapeCast S1x22 P4 shapeCasts_S1x22_S1x22 : FVec Ideal S1x22 .f32) broadcasts_S1x22_S2048x22 : FVec Ideal S2048x22 .f32) (ix2 p n)
      = P4 (ix2 0 n) := by
  rw [shapeCast_self]
  exact broadcastTo_apply P4 broadcasts_S1x22_S2048x22 (ix2 p n) (ix2 0 n) (fun a => match a with
    | ⟨0, _⟩ => by show (0 : Nat) = (if (1 : Nat) = 1 then 0 else p.val); rw [if_pos rfl]
    | ⟨1, _⟩ => by show n.val = (if (22 : Nat) = 1 then 0 else n.val); rw [if_neg (by decide)])

/-- The same for the bias row of 21 entries. -/
theorem bias21_apply (P6 : FVec Ideal S1x21 .f32) (p : Fin 2048) (n : Fin 21) :
    (broadcastTo S2048x21 (shapeCast S1x21 P6 shapeCasts_S1x21_S1x21 : FVec Ideal S1x21 .f32) broadcasts_S1x21_S2048x21 : FVec Ideal S2048x21 .f32) (ix2 p n)
      = P6 (ix2 0 n) := by
  rw [shapeCast_self]
  exact broadcastTo_apply P6 broadcasts_S1x21_S2048x21 (ix2 p n) (ix2 0 n) (fun a => match a with
    | ⟨0, _⟩ => by show (0 : Nat) = (if (1 : Nat) = 1 then 0 else p.val); rw [if_pos rfl]
    | ⟨1, _⟩ => by show n.val = (if (21 : Nat) = 1 then 0 else n.val); rw [if_neg (by decide)])

theorem layer3_row (a : FVec Ideal S2048x32 .f32) (P3 : FVec Ideal S22x32 .bf16) (P4 : FVec Ideal S1x22 .f32) (p : Fin 2048) :
    rowOf (layer3 a P3 P4) p = hidden3 (mat P3) (row1 P4) (rowOf a p) := by
  funext n
  exact congrArg₂ (fun (z b : EReal) => max (z + b) zeroW)
    (dense_apply dot_S2048x32_S22x32_S2048x22_1_1_0_0_n_n rfl rfl rfl rfl rfl rfl a P3 bitsLt_bf16_f32 shapeCasts_S22x32_S22x32 p n)
    (bias22_apply P4 p n)

theorem layer4_row (a : FVec Ideal S2048x22 .f32) (P5 : FVec Ideal S21x22 .bf16) (P6 : FVec Ideal S1x21 .f32) (p : Fin 2048) :
    rowOf (layer4 a P5 P6) p = hidden4 (mat P5) (row1 P6) (rowOf a p) := by
  funext n
  exact congrArg₂ (fun (z b : EReal) => max (z + b) zeroW)
    (dense_apply dot_S2048x22_S21x22_S2048x21_1_1_0_0_n_n rfl rfl rfl rfl rfl rfl a P5 bitsLt_bf16_f32 shapeCasts_S21x22_S21x22 p n)
    (bias21_apply P6 p n)

theorem layer5_row (a : FVec Ideal S2048x21 .f32) (P7 : FVec Ideal S10x21 .bf16) (p : Fin 2048) :
    rowOf (layer5 a P7) p = lin (mat P7) (rowOf a p) := by
  funext n
  exact dense_apply dot_S2048x21_S10x21_S2048x10_1_1_0_0_n_n rfl rfl rfl rfl rfl rfl a P7 bitsLt_bf16_f32 shapeCasts_S10x21_S10x21 p n

/-! ## The normalisation at a row -/

/-- A column [2048, 1] broadcast across the ten columns reads its row's entry. -/
theorem column_apply (y : FVec Ideal S2048x1 .f32) (p : Fin 2048) (q : Fin 10) :
    (broadcastTo S2048x10 y broadcasts_S2048x1_S2048x10 : FVec Ideal S2048x10 .f32) (ix2 p q) = y (ix2 p 0) :=
  broadcastTo_apply y broadcasts_S2048x1_S2048x10 (ix2 p q) (ix2 p 0) (fun a => match a with
    | ⟨0, _⟩ => by show p.val = (if (2048 : Nat) = 1 then 0 else p.val); rw [if_neg (by decide)]
    | ⟨1, _⟩ => by show (0 : Nat) = (if (1 : Nat) = 1 then 0 else q.val); rw [if_pos rfl])

/-- A vector of 2048 entries recast as a column keeps entry p in row p. -/
theorem ascolumn_apply (u : FVec Ideal S2048 .f32) (p : Fin 2048) :
    (shapeCast S2048x1 u shapeCasts_S2048_S2048x1 : FVec Ideal S2048x1 .f32) (ix2 p 0) = u (ix1 p) :=
  shapeCast_apply u shapeCasts_S2048_S2048x1 (ix2 p 0) (ix1 p) (by
    rw [Shape.rowMajor_val_one, Shape.rowMajor_val_two]; show p.val = p.val * 1 + 0; omega)

/-- The maximum over the ten columns, from −∞: the fold of max over the row's entries. -/
theorem lanemax_apply (v : FVec Ideal S2048x10 .f32) (p : Fin 2048) :
    multiReduction (F := Ideal) .maximumf [1] S2048 v 0xFF800000#32 reduces_S2048x10_S2048 (.inl rfl) rfl (ix1 p)
      = (Finset.univ : Finset (Fin 10)).fold max negInfW (rowOf v p) := by
  refine (Ideal.multiReduction_maximumf_single v 0xFF800000#32 reduces_S2048x10_S2048 (.inl rfl) rfl (ix1 p)).trans ?_
  exact Finset.fold_congr (fun k _ => congrArg v (funext fun a => Fin.ext (by
    match a with
    | ⟨0, _⟩ => rfl
    | ⟨1, _⟩ => rfl)))

/-- The sum over the ten columns: the sum of the row's entries. -/
theorem lanesum_apply (u : FVec Ideal S2048x10 .f32) (p : Fin 2048) :
    multiReduction (F := Ideal) .add [1] S2048 u 0x00000000#32 reduces_S2048x10_S2048 (.inl rfl) rfl (ix1 p)
      = ∑ j : Fin 10, u (ix2 p j) := by
  refine (Ideal.multiReduction_add_single u 0x00000000#32 reduces_S2048x10_S2048 (.inl rfl) rfl (ix1 p)).trans ?_
  exact Finset.sum_congr rfl (fun k _ => congrArg u (funext fun a => Fin.ext (by
    match a with
    | ⟨0, _⟩ => rfl
    | ⟨1, _⟩ => rfl)))

/-- Each row's largest entry. -/
def rmax (v : FVec Ideal S2048x10 .f32) : FVec Ideal S2048 .f32 :=
  maximumf (F := Ideal) (broadcast S2048 (Scalar.ofBits (F := Ideal) .f32 0xFF800000#32))
    (multiReduction (F := Ideal) .maximumf [1] S2048 v 0xFF800000#32 reduces_S2048x10_S2048 (.inl rfl) rfl)

/-- The rows minus their largest entries. -/
def shifted (v : FVec Ideal S2048x10 .f32) : FVec Ideal S2048x10 .f32 :=
  subf (F := Ideal) v (broadcastTo S2048x10 (shapeCast S2048x1 (rmax v) shapeCasts_S2048_S2048x1 : FVec Ideal S2048x1 .f32) broadcasts_S2048x1_S2048x10 : FVec Ideal S2048x10 .f32)

/-- The logarithm of each row's sum of exponentials, as a column. -/
def logsum (v : FVec Ideal S2048x10 .f32) : FVec Ideal S2048x1 .f32 :=
  log (F := Ideal) (shapeCast S2048x1 (multiReduction (F := Ideal) .add [1] S2048 (exp (F := Ideal) (shifted v)) 0x00000000#32 reduces_S2048x10_S2048 (.inl rfl) rfl) shapeCasts_S2048_S2048x1 : FVec Ideal S2048x1 .f32)

/-- The normalisation is: the shifted rows minus the column of logarithms. -/
theorem pay1_parts (v : FVec Ideal S2048x10 .f32) :
    k0_pay1 (F := Ideal) v = subf (F := Ideal) (shifted v) (broadcastTo S2048x10 (logsum v) broadcasts_S2048x1_S2048x10 : FVec Ideal S2048x10 .f32) := rfl

theorem rmax_apply (v : FVec Ideal S2048x10 .f32) (p : Fin 2048) : rmax v (ix1 p) = rowMax (rowOf v p) :=
  congrArg (fun z => max negInfW z) (lanemax_apply v p)

theorem shifted_apply (v : FVec Ideal S2048x10 .f32) (p : Fin 2048) (q : Fin 10) :
    shifted v (ix2 p q) = v (ix2 p q) - rowMax (rowOf v p) :=
  congrArg (fun z => v (ix2 p q) - z)
    ((column_apply _ p q).trans ((ascolumn_apply (rmax v) p).trans (rmax_apply v p)))

theorem logsum_apply (v : FVec Ideal S2048x10 .f32) (p : Fin 2048) :
    logsum v (ix2 p 0) = Ideal.log (∑ j : Fin 10, Ideal.exp (v (ix2 p j) - rowMax (rowOf v p))) := by
  refine congrArg Ideal.log ((ascolumn_apply _ p).trans ((lanesum_apply _ p).trans ?_))
  exact Finset.sum_congr rfl fun j _ => congrArg Ideal.exp (shifted_apply v p j)

/-- Row p of the normalised block is the normalisation of row p. -/
theorem pay1_row (v : FVec Ideal S2048x10 .f32) (p : Fin 2048) :
    rowOf (k0_pay1 (F := Ideal) v) p = logSoftmax (rowOf v p) := by
  funext q
  rw [pay1_parts]
  exact congrArg₂ (fun (s l : EReal) => s - l) (shifted_apply v p q) ((column_apply (logsum v) p q).trans (logsum_apply v p))

/-! ## The whole body at a row -/

/-- ROW p OF THE BODY'S RESULT is the network of row p of the block, with the loaded weights and biases. -/
theorem body_row (P0 : FVec Ideal S2048x784 .f32) (P1 : FVec Ideal S124x784 .bf16) (P2 : FVec Ideal S32x124 .bf16)
    (P3 : FVec Ideal S22x32 .bf16) (P4 : FVec Ideal S1x22 .f32) (P5 : FVec Ideal S21x22 .bf16) (P6 : FVec Ideal S1x21 .f32)
    (P7 : FVec Ideal S10x21 .bf16) (p : Fin 2048) :
    rowOf (k0_pay1 (F := Ideal) (k0_pay2 (F := Ideal) P0 P1 P2 P3 P4 P5 P6 P7)) p
      = net (rowOf P0 p) (mat P1) (mat P2) (mat P3) (row1 P4) (mat P5) (row1 P6) (mat P7) := by
  rw [pay1_row, pay2_layers, layer5_row, layer4_row, layer3_row, layer2_row, layer1_row]
  rfl

end Cert.KernelIdeal.Row

end
-- ==== Proof.Blocks.lean ====
/-
  From the blocks to the whole result.

  The region runs its body at 32 grid points; point t stages rows 2048 t … 2048 t + 2047 of the input and the whole of
  every weight and bias, and writes back rows 2048 t … 2048 t + 2047 of the result.  The weights the region finds are
  the arguments rounded to a narrower float format by the host (the identity over the extended reals), the bias rows
  the bias vectors recast to shape [1, N].  Since the body computes the network of each row of its block
  (KernelRow.lean), what point t writes back is block t of the array `wholeNet` of the arguments — the network on
  every row —, and the 32 blocks tile the 65536 rows, so that array is what the result ends holding.
-/
import proofs.«426243_j18442589569842_3_alg».proof.Proof.Gen.KernelIdeal.Value
import proofs.«426243_j18442589569842_3_alg».proof.Proof.KernelRow
import Idealize.ShloMosaic.Lib.StableHlo.Run
import Idealize.ShloMosaic.Lib.Pipeline.Value

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.RowNet Cert.Rows

variable (m : (ℓ : Loc nD τ sig) → Buf (Elt Ideal) ℓ) (ρ : Dev nD → PrngReg)

theorem hz : (![0, 0] : Fin 2 → Nat) = fun _ => 0 := funext fun a => by fin_cases a <;> rfl

/-! ## The arguments, the result, and the blocks, at their literal types -/

abbrev argX (c : Dev nD) : FVec Ideal S65536x784 .f32 := m ((c : Thread nD τ).loc main_arg0)
abbrev argW0 (c : Dev nD) : FVec Ideal S124x784 .f32 := m ((c : Thread nD τ).loc main_arg1)
abbrev argW1 (c : Dev nD) : FVec Ideal S32x124 .f32 := m ((c : Thread nD τ).loc main_arg2)
abbrev argW3 (c : Dev nD) : FVec Ideal S22x32 .f32 := m ((c : Thread nD τ).loc main_arg3)
abbrev argB3 (c : Dev nD) : FVec Ideal S22 .f32 := m ((c : Thread nD τ).loc main_arg4)
abbrev argW5 (c : Dev nD) : FVec Ideal S21x22 .f32 := m ((c : Thread nD τ).loc main_arg5)
abbrev argB5 (c : Dev nD) : FVec Ideal S21 .f32 := m ((c : Thread nD τ).loc main_arg6)
abbrev argW7 (c : Dev nD) : FVec Ideal S10x21 .f32 := m ((c : Thread nD τ).loc main_arg7)

/-- What the result array ends holding: the network on every row of the input. -/
abbrev result (c : Dev nD) : FVec Ideal S65536x10 .f32 :=
  wholeNet (argX m c) (argW0 m c) (argW1 m c) (argW3 m c) (argB3 m c) (argW5 m c) (argB5 m c) (argW7 m c)

abbrev blkX (c : Dev nD) (t : Fin cfg0.N) : FVec Ideal S2048x784 .f32 := iblk m c 0 t
abbrev blkW0 (c : Dev nD) (t : Fin cfg0.N) : FVec Ideal S124x784 .bf16 := iblk m c 1 t
abbrev blkW1 (c : Dev nD) (t : Fin cfg0.N) : FVec Ideal S32x124 .bf16 := iblk m c 2 t
abbrev blkW3 (c : Dev nD) (t : Fin cfg0.N) : FVec Ideal S22x32 .bf16 := iblk m c 3 t
abbrev blkB3 (c : Dev nD) (t : Fin cfg0.N) : FVec Ideal S1x22 .f32 := iblk m c 4 t
abbrev blkW5 (c : Dev nD) (t : Fin cfg0.N) : FVec Ideal S21x22 .bf16 := iblk m c 5 t
abbrev blkB5 (c : Dev nD) (t : Fin cfg0.N) : FVec Ideal S1x21 .f32 := iblk m c 6 t
abbrev blkW7 (c : Dev nD) (t : Fin cfg0.N) : FVec Ideal S10x21 .bf16 := iblk m c 7 t

/-! ## The printed index maps, decided over the grid -/

/-- The input's and the result's block at point t is block (t, 0). -/
theorem idx_rows : ∀ t : Fin cfg0.N, win0_0.index t (0 : Fin 2) = t.val ∧ win0_0.index t (1 : Fin 2) = 0
    ∧ win0_8.index t (0 : Fin 2) = t.val ∧ win0_8.index t (1 : Fin 2) = 0 :=
  (by decide +kernel : ∀ t : Fin grid0.N, win0_0.index t (0 : Fin 2) = t.val ∧ win0_0.index t (1 : Fin 2) = 0
    ∧ win0_8.index t (0 : Fin 2) = t.val ∧ win0_8.index t (1 : Fin 2) = 0)

theorem idx_whole1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem idx_whole2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem idx_whole3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem idx_whole4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem idx_whole5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem idx_whole6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem idx_whole7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-! ## The arrays the region finds: the host operations before it -/

theorem V_main_v0 (c : Dev nD) : (V m c main_v0 : S124x784.Idx → EReal) = (truncf .bf16 (argW0 m c) bitsLt_bf16_f32 : FVec Ideal S124x784 .bf16) := by
  dsimp only [Gen.V, Gen.hostOps0]; after_results
theorem V_main_v1 (c : Dev nD) : (V m c main_v1 : S32x124.Idx → EReal) = (truncf .bf16 (argW1 m c) bitsLt_bf16_f32 : FVec Ideal S32x124 .bf16) := by
  dsimp only [Gen.V, Gen.hostOps0]; after_results
theorem V_main_v2 (c : Dev nD) : (V m c main_v2 : S22x32.Idx → EReal) = (truncf .bf16 (argW3 m c) bitsLt_bf16_f32 : FVec Ideal S22x32 .bf16) := by
  dsimp only [Gen.V, Gen.hostOps0]; after_results
theorem V_main_v3 (c : Dev nD) : (V m c main_v3 : S21x22.Idx → EReal) = (truncf .bf16 (argW5 m c) bitsLt_bf16_f32 : FVec Ideal S21x22 .bf16) := by
  dsimp only [Gen.V, Gen.hostOps0]; after_results
theorem V_main_v4 (c : Dev nD) : (V m c main_v4 : S10x21.Idx → EReal) = (truncf .bf16 (argW7 m c) bitsLt_bf16_f32 : FVec Ideal S10x21 .bf16) := by
  dsimp only [Gen.V, Gen.hostOps0]; after_results
theorem V_main_v5 (c : Dev nD) : (V m c main_v5 : S1x22.Idx → EReal) = shapeCast S1x22 (argB3 m c) shapeCasts_S22_S1x22 := by
  dsimp only [Gen.V, Gen.hostOps0]; after_results; rfl
theorem V_main_v6 (c : Dev nD) : (V m c main_v6 : S1x21.Idx → EReal) = shapeCast S1x21 (argB5 m c) shapeCasts_S21_S1x21 := by
  dsimp only [Gen.V, Gen.hostOps0]; after_results; rfl

/-! ## The blocks read back as the arguments -/

/-- Row p of the input's block at point t is row 2048 t + p of the input. -/
theorem blkX_row (c : Dev nD) (t : Fin cfg0.N) (p : Fin 2048) (r : Fin 65536) (hr : r.val = 2048 * t.val + p.val) :
    rowOf (blkX m c t) p = rowOf (argX m c) r := by
  obtain ⟨h0, h1, -⟩ := idx_rows t
  funext k
  show iblk m c 0 t (ix2 p k) = m ((c : Thread nD τ).loc main_arg0) (ix2 r k)
  unfold iblk
  rw [View.read_apply]
  show V m c main_arg0 _ = _
  rw [V_main_arg0]
  congr 1
  funext a
  apply Fin.ext
  match a with
  | ⟨0, _⟩ => show win0_0.index t (0 : Fin 2) * 2048 + 1 * p.val = r.val; rw [h0, hr]; omega
  | ⟨1, _⟩ => show win0_0.index t (1 : Fin 2) * 784 + 1 * k.val = k.val; rw [h1]; omega

/-- blkW0: the window's one block is the whole array the region finds, which is argument main_arg1 (rounded: the identity
    over the extended reals). -/
theorem blkW0_eq (c : Dev nD) (t : Fin cfg0.N) : mat (blkW0 m c t) = mat (argW0 m c) := by
  obtain ⟨h0, h1⟩ := idx_whole1 t
  funext n k
  show iblk m c 1 t (ix2 n k) = m ((c : Thread nD τ).loc main_arg1) (ix2 n k)
  unfold iblk
  rw [View.read_apply]
  show V m c main_v0 _ = _
  rw [V_main_v0]
  show m ((c : Thread nD τ).loc main_arg1) _ = m ((c : Thread nD τ).loc main_arg1) (ix2 n k)
  congr 1
  funext a
  apply Fin.ext
  match a with
  | ⟨0, _⟩ => show win0_1.index t (0 : Fin 2) * 124 + 1 * n.val = n.val; rw [h0]; omega
  | ⟨1, _⟩ => show win0_1.index t (1 : Fin 2) * 784 + 1 * k.val = k.val; rw [h1]; omega

/-- blkW1: the window's one block is the whole array the region finds, which is argument main_arg2 (rounded: the identity
    over the extended reals). -/
theorem blkW1_eq (c : Dev nD) (t : Fin cfg0.N) : mat (blkW1 m c t) = mat (argW1 m c) := by
  obtain ⟨h0, h1⟩ := idx_whole2 t
  funext n k
  show iblk m c 2 t (ix2 n k) = m ((c : Thread nD τ).loc main_arg2) (ix2 n k)
  unfold iblk
  rw [View.read_apply]
  show V m c main_v1 _ = _
  rw [V_main_v1]
  show m ((c : Thread nD τ).loc main_arg2) _ = m ((c : Thread nD τ).loc main_arg2) (ix2 n k)
  congr 1
  funext a
  apply Fin.ext
  match a with
  | ⟨0, _⟩ => show win0_2.index t (0 : Fin 2) * 32 + 1 * n.val = n.val; rw [h0]; omega
  | ⟨1, _⟩ => show win0_2.index t (1 : Fin 2) * 124 + 1 * k.val = k.val; rw [h1]; omega

/-- blkW3: the window's one block is the whole array the region finds, which is argument main_arg3 (rounded: the identity
    over the extended reals). -/
theorem blkW3_eq (c : Dev nD) (t : Fin cfg0.N) : mat (blkW3 m c t) = mat (argW3 m c) := by
  obtain ⟨h0, h1⟩ := idx_whole3 t
  funext n k
  show iblk m c 3 t (ix2 n k) = m ((c : Thread nD τ).loc main_arg3) (ix2 n k)
  unfold iblk
  rw [View.read_apply]
  show V m c main_v2 _ = _
  rw [V_main_v2]
  show m ((c : Thread nD τ).loc main_arg3) _ = m ((c : Thread nD τ).loc main_arg3) (ix2 n k)
  congr 1
  funext a
  apply Fin.ext
  match a with
  | ⟨0, _⟩ => show win0_3.index t (0 : Fin 2) * 22 + 1 * n.val = n.val; rw [h0]; omega
  | ⟨1, _⟩ => show win0_3.index t (1 : Fin 2) * 32 + 1 * k.val = k.val; rw [h1]; omega

/-- blkW5: the window's one block is the whole array the region finds, which is argument main_arg5 (rounded: the identity
    over the extended reals). -/
theorem blkW5_eq (c : Dev nD) (t : Fin cfg0.N) : mat (blkW5 m c t) = mat (argW5 m c) := by
  obtain ⟨h0, h1⟩ := idx_whole5 t
  funext n k
  show iblk m c 5 t (ix2 n k) = m ((c : Thread nD τ).loc main_arg5) (ix2 n k)
  unfold iblk
  rw [View.read_apply]
  show V m c main_v3 _ = _
  rw [V_main_v3]
  show m ((c : Thread nD τ).loc main_arg5) _ = m ((c : Thread nD τ).loc main_arg5) (ix2 n k)
  congr 1
  funext a
  apply Fin.ext
  match a with
  | ⟨0, _⟩ => show win0_5.index t (0 : Fin 2) * 21 + 1 * n.val = n.val; rw [h0]; omega
  | ⟨1, _⟩ => show win0_5.index t (1 : Fin 2) * 22 + 1 * k.val = k.val; rw [h1]; omega

/-- blkW7: the window's one block is the whole array the region finds, which is argument main_arg7 (rounded: the identity
    over the extended reals). -/
theorem blkW7_eq (c : Dev nD) (t : Fin cfg0.N) : mat (blkW7 m c t) = mat (argW7 m c) := by
  obtain ⟨h0, h1⟩ := idx_whole7 t
  funext n k
  show iblk m c 7 t (ix2 n k) = m ((c : Thread nD τ).loc main_arg7) (ix2 n k)
  unfold iblk
  rw [View.read_apply]
  show V m c main_v4 _ = _
  rw [V_main_v4]
  show m ((c : Thread nD τ).loc main_arg7) _ = m ((c : Thread nD τ).loc main_arg7) (ix2 n k)
  congr 1
  funext a
  apply Fin.ext
  match a with
  | ⟨0, _⟩ => show win0_7.index t (0 : Fin 2) * 10 + 1 * n.val = n.val; rw [h0]; omega
  | ⟨1, _⟩ => show win0_7.index t (1 : Fin 2) * 21 + 1 * k.val = k.val; rw [h1]; omega

/-- The bias row the region finds is the bias vector recast to [1, 22]: its n-th entry. -/
theorem blkB3_eq (c : Dev nD) (t : Fin cfg0.N) : row1 (blkB3 m c t) = vec (argB3 m c) := by
  obtain ⟨h0, h1⟩ := idx_whole4 t
  funext n
  show iblk m c 4 t (ix2 0 n) = m ((c : Thread nD τ).loc main_arg4) (ix1 n)
  unfold iblk
  rw [View.read_apply]
  show V m c main_v5 _ = _
  rw [V_main_v5]
  refine shapeCast_apply _ _ _ (ix1 n) ?_
  rw [Shape.rowMajor_val_one, Shape.rowMajor_val_two]
  show n.val = (win0_4.index t (0 : Fin 2) * 1 + 1 * 0) * 22 + (win0_4.index t (1 : Fin 2) * 22 + 1 * n.val)
  rw [h0, h1]; omega

/-- The same for the bias of 21 entries. -/
theorem blkB5_eq (c : Dev nD) (t : Fin cfg0.N) : row1 (blkB5 m c t) = vec (argB5 m c) := by
  obtain ⟨h0, h1⟩ := idx_whole6 t
  funext n
  show iblk m c 6 t (ix2 0 n) = m ((c : Thread nD τ).loc main_arg6) (ix1 n)
  unfold iblk
  rw [View.read_apply]
  show V m c main_v6 _ = _
  rw [V_main_v6]
  refine shapeCast_apply _ _ _ (ix1 n) ?_
  rw [Shape.rowMajor_val_one, Shape.rowMajor_val_two]
  show n.val = (win0_6.index t (0 : Fin 2) * 1 + 1 * 0) * 21 + (win0_6.index t (1 : Fin 2) * 21 + 1 * n.val)
  rw [h0, h1]; omega

/-! ## What a point writes back, and the whole array -/

/-- WHAT POINT t WRITES BACK is block t of `result`: rows 2048 t … of the network on every row. -/
theorem flushed_eq (c : Dev nD) (t : Fin cfg0.N) :
    (dats m 0 c).flushed 8 t = ((cfg0.win 8).blk t).view.read (Elt Ideal) (result m c) := by
  rw [flushed8]
  unfold out0_8
  rw [View.canon_unit_zero hz]
  simp only [View.ld_unit_zero (S := S2048x784) hz, View.ld_unit_zero (S := S124x784) hz, View.ld_unit_zero (S := S32x124) hz, View.ld_unit_zero (S := S22x32) hz, View.ld_unit_zero (S := S1x22) hz, View.ld_unit_zero (S := S21x22) hz, View.ld_unit_zero (S := S1x21) hz, View.ld_unit_zero (S := S10x21) hz]
  obtain ⟨-, -, h2, h3⟩ := idx_rows t
  funext j
  obtain ⟨p, q, rfl⟩ : ∃ (p : Fin 2048) (q : Fin 10), j = ix2 p q := ⟨j 0, j 1, eq_ix2 j⟩
  show k0_pay1 (F := Ideal) (k0_pay2 (F := Ideal) (blkX m c t) (blkW0 m c t) (blkW1 m c t) (blkW3 m c t) (blkB3 m c t) (blkW5 m c t) (blkB5 m c t) (blkW7 m c t)) (ix2 p q)
    = result m c (((cfg0.win 8).blk t).view.emb (ix2 p q))
  have hlt : t.val < 32 := Nat.lt_of_lt_of_eq t.isLt N_0
  have hemb : ((cfg0.win 8).blk t).view.emb (ix2 p q) = ix2 (⟨2048 * t.val + p.val, by have := p.isLt; omega⟩ : Fin 65536) q := by
    funext a
    apply Fin.ext
    match a with
    | ⟨0, _⟩ => show win0_8.index t (0 : Fin 2) * 2048 + 1 * p.val = 2048 * t.val + p.val; rw [h2]; omega
    | ⟨1, _⟩ => show win0_8.index t (1 : Fin 2) * 10 + 1 * q.val = q.val; rw [h3]; omega
  rw [hemb]
  refine (congrFun (Row.body_row (blkX m c t) (blkW0 m c t) (blkW1 m c t) (blkW3 m c t) (blkB3 m c t) (blkW5 m c t) (blkB5 m c t) (blkW7 m c t) p) q).trans ?_
  rw [blkX_row m c t p ⟨2048 * t.val + p.val, by have := p.isLt; omega⟩ rfl, blkW0_eq, blkW1_eq, blkW3_eq, blkB3_eq, blkW5_eq, blkB5_eq, blkW7_eq]
  rfl

/-- An index of the result is in point t's block iff each coordinate is in the block's range on its axis. -/
theorem mem_blk (t : Fin cfg0.N) (i : S65536x10.Idx) :
    i ∈ ((cfg0.win 8).blk t).view.set ↔ ∀ a : Fin 2, win0_8.index t a * S2048x10.size a ≤ (i a).val ∧ (i a).val < win0_8.index t a * S2048x10.size a + S2048x10.size a := by
  show i ∈ ((View.whole main_v7).slice (win0_8.rect t)).set ↔ _
  rw [View.set_slice_whole, Rect.mem_set_unit]
  exact Iff.rfl

/-- Every block of rows is some point's: point r / 2048 covers row r. -/
theorem idx_onto : ∀ b : Fin 32, ∃ t : Fin cfg0.N, win0_8.index t (0 : Fin 2) = b.val ∧ win0_8.index t (1 : Fin 2) = 0 :=
  (by decide +kernel : ∀ b : Fin 32, ∃ t : Fin grid0.N, win0_8.index t (0 : Fin 2) = b.val ∧ win0_8.index t (1 : Fin 2) = 0)

/-- The 32 blocks cover the result. -/
theorem cover (i : S65536x10.Idx) : ∃ t : Fin cfg0.N, (cfg0.win 8).flush t = true ∧ i ∈ ((cfg0.win 8).blk t).view.set := by
  have hi0 : (i 0).val < 65536 := (i 0).isLt
  have hi1 : (i 1).val < 10 := (i 1).isLt
  obtain ⟨t, ht0, ht1⟩ := idx_onto ⟨(i 0).val / 2048, by omega⟩
  refine ⟨t, flush0_8 t, ?_⟩
  rw [mem_blk]
  intro a
  match a with
  | ⟨0, _⟩ => show win0_8.index t (0 : Fin 2) * 2048 ≤ (i 0).val ∧ (i 0).val < win0_8.index t (0 : Fin 2) * 2048 + 2048; rw [ht0]; show (i 0).val / 2048 * 2048 ≤ (i 0).val ∧ (i 0).val < (i 0).val / 2048 * 2048 + 2048; omega
  | ⟨1, _⟩ => show win0_8.index t (1 : Fin 2) * 10 ≤ (i 1).val ∧ (i 1).val < win0_8.index t (1 : Fin 2) * 10 + 10; rw [ht1]; omega

/-- THE RESULT ARRAY after the run is the network on every row of the input. -/
theorem final (c : Dev nD) : (dats m 0 c).arrAt 8 cfg0.N = result m c :=
  (dats m 0 c).arrAt_eq_of_cover 8 (result m c) (fun t _ => flushed_eq m c t) cover

/-- The run, read: the result at the network on every row, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (run_blocks m ρ)

end Cert.KernelIdeal.Blocks

end
-- ==== Proof.lean ====
/-
  A five-layer network with a log-softmax, computed block by block, against the same network computed on the whole
  input.

  The kernel streams the [65536, 784] input through in 32 blocks of 2048 rows; on each block it applies
  x ↦ x·W0ᵀ, then h ↦ max(h·W1ᵀ, 0), h ↦ max(h·W3ᵀ + b3, 0), h ↦ max(h·W5ᵀ + b5, 0), h ↦ h·W7ᵀ, each product
  contracting the last axis of both operands, the operands rounded to a narrower float format on the way in; then each
  row z of ten values becomes z − M − log ∑ exp(z − M), M the row's maximum.  The reference does the same on the
  whole input, transposing each weight first.  Over the extended reals the rounding is the identity and every product
  is the plain sum over the contracted index, so BOTH programs compute, in row r of the result, one and the same
  function (RowNet.lean `net`) of row r of the input and of the weights: the only freedom either has is the order
  of the terms of a finite sum, which the sum does not record.  No law of arithmetic beyond that is needed — in
  particular none that fails at infinities — so the precondition (finite inputs) is not opened.

  The kernel's side: row p of the body's result on a block is the network of row p of the block (KernelRow.lean, over
  LibDotRows.lean's reading of a product that contracts both last axes); the blocks are rows 2048 t … of the input
  and the whole weights as the region finds them, and the 32 blocks written back tile the result, which therefore
  ends holding the network on every row (Blocks.lean).  The reference's side: its run read back stage by stage
  (RefRun.lean, RefRead.lean) gives row r of its result as the network of row r (RefRow.lean).  The idealization
  rewrote no operation, so the kernel's idealization is the kernel's own text read over the extended reals.
-/
import proofs.«426243_j18442589569842_3_alg».proof.Defs
import proofs.«426243_j18442589569842_3_alg».proof.Proof.Gen.Kernel
import proofs.«426243_j18442589569842_3_alg».proof.Proof.Gen.Kernel.Skeleton
import proofs.«426243_j18442589569842_3_alg».proof.Proof.Gen.Kernel.Launch
import proofs.«426243_j18442589569842_3_alg».proof.Proof.Gen.Kernel.Points
import proofs.«426243_j18442589569842_3_alg».proof.Proof.Gen.Kernel.Frame
import proofs.«426243_j18442589569842_3_alg».proof.Proof.Gen.KernelIdeal
import proofs.«426243_j18442589569842_3_alg».proof.Proof.Gen.KernelIdeal.Skeleton
import proofs.«426243_j18442589569842_3_alg».proof.Proof.Gen.KernelIdeal.Launch
import proofs.«426243_j18442589569842_3_alg».proof.Proof.Gen.KernelIdeal.Points
import proofs.«426243_j18442589569842_3_alg».proof.Proof.Gen.KernelIdeal.Frame
import proofs.«426243_j18442589569842_3_alg».proof.Proof.Gen.KernelIdeal.Value
import proofs.«426243_j18442589569842_3_alg».proof.Proof.Gen.ReferenceIdeal
import proofs.«426243_j18442589569842_3_alg».proof.Proof.Gen.Pre_finite_inputs
import proofs.«426243_j18442589569842_3_alg».proof.Proof.RefRun
import proofs.«426243_j18442589569842_3_alg».proof.Proof.RefRead
import proofs.«426243_j18442589569842_3_alg».proof.Proof.RefRow
import proofs.«426243_j18442589569842_3_alg».proof.Proof.Blocks
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote nothing: there is nothing to state. -/
theorem preserves : Cert.preserves_Kernel_KernelIdeal := trivial

/-- Both programs end with the network on every row of the input in their result: the kernel's 32 blocks tile it, the
    reference computes it whole, and the arguments they start from agree. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.RunP.run (F := Ideal) m' ρ')
  obtain ⟨e0, e1, e2, e3, e4, e5, e6, e7⟩ := hagree c
  rw [Cert.ReferenceIdeal.ReadP.val_main_v19_eq, Cert.ReferenceIdeal.Row.ref_eq_wholeNet, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
